-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.truncf_extf.Statement Cert.KernelIdeal.S512x10000 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v27)) (v1 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_v38) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S131072 : Shape := ⟨1, ![131072]⟩
abbrev S10000x256 : Shape := ⟨2, ![10000, 256]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel
  bcast_S_S10000x256 : S_.BroadcastsInDim S10000x256 (![] : Fin 0 → Fin S10000x256.rank)
  reducesTo_S10000x256_S_d0_1 : S10000x256.ReducesTo [0, 1] S_
  bcast_S_S131072 : S_.BroadcastsInDim S131072 (![] : Fin 0 → Fin S131072.rank)
  reducesTo_S131072_S_d0 : S131072.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S131072x256 .f32) (main_arg1 : IVec S131072 32) (main_arg2 : FVec F S10000x256 .f32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S10000x256 .f32 := Host.absf main_arg2
  let main_cst_0 : FVec F S_ .f32 := constant S_ .f32 0x7F800000#32
  let main_v5 : FVec F S10000x256 .f32 := broadcastInDim S10000x256 ![] bcast_S_S10000x256 main_cst_0
  let main_v6 : IVec S10000x256 1 := cmpf .olt main_v4 main_v5
  let main_c_1 : IVec S_ 1 := constantI S_ 1 1#1
  let main_v7 : IVec S_ 1 := (fun x v => Host.reduce IntOp.andi x v reducesTo_S10000x256_S_d0_1 h_S_) main_v6 main_c_1
  let main_v8 : IVec S_ 1 := andi main_v3 main_v7
  let main_c_2 : IVec S_ 32 := constantI S_ 32 0#32
  let main_v9 : IVec S131072 32 := broadcastInDim S131072 ![] bcast_S_S131072 main_c_2
  let main_v10 : IVec S131072 1 := cmpi .sge main_arg1 main_v9
  let main_c_3 : IVec S_ 1 := constantI S_ 1 1#1
  let main_v11 : IVec S_ 1 := (fun x v => Host.reduce IntOp.andi x v reducesTo_S131072_S_d0 h_S_) main_v10 main_c_3
  let main_v12 : IVec S_ 1 := andi main_v8 main_v11
  let main_c_4 : IVec S_ 32 := constantI S_ 32 10000#32
  let main_v13 : IVec S131072 32 := broadcastInDim S131072 ![] bcast_S_S131072 main_c_4
  let main_v14 : IVec S131072 1 := cmpi .slt main_arg1 main_v13
  let main_c_5 : IVec S_ 1 := constantI S_ 1 1#1
  let main_v15 : IVec S_ 1 := (fun x v => Host.reduce IntOp.andi x v reducesTo_S131072_S_d0 h_S_) main_v14 main_c_5
  fn_part1 (F := F) main_v12 main_v15
-- ==== Kernel.lean ====
abbrev S131072x256 : Shape := ⟨2, ![131072, 256]⟩
abbrev S131072 : Shape := ⟨1, ![131072]⟩
abbrev S10000x256 : Shape := ⟨2, ![10000, 256]⟩
abbrev S131072x1 : Shape := ⟨2, ![131072, 1]⟩
abbrev S2x10000x256 : Shape := ⟨3, ![2, 10000, 256]⟩
abbrev S2x1x10000 : Shape := ⟨3, ![2, 1, 10000]⟩
abbrev S2x1x1 : Shape := ⟨3, ![2, 1, 1]⟩
abbrev S512x256 : Shape := ⟨2, ![512, 256]⟩
abbrev S512x1 : Shape := ⟨2, ![512, 1]⟩
abbrev S1x10000x256 : Shape := ⟨3, ![1, 10000, 256]⟩
abbrev S1x1x10000 : Shape := ⟨3, ![1, 1, 10000]⟩
abbrev S1x1x1 : Shape := ⟨3, ![1, 1, 1]⟩
abbrev S1x10000 : Shape := ⟨2, ![1, 10000]⟩
abbrev S1x1 : Shape := ⟨2, ![1, 1]⟩
abbrev S512x10000 : Shape := ⟨2, ![512, 10000]⟩
abbrev S10000 : Shape := ⟨1, ![10000]⟩
abbrev S1x512x256 : Shape := ⟨3, ![1, 512, 256]⟩
abbrev S1 : Shape := ⟨1, ![1]⟩
abbrev S_ : Shape := ⟨0, ![]⟩
abbrev S10000x1 : Shape := ⟨2, ![10000, 1]⟩

abbrev nBuf : Space → Nat
  | .hbm => 53
  | .vmem => 7
  | .smem => 0
  | _ => 0

abbrev bufTy : (tb : Table) → Fin (tcTables nBuf tb) → BufTy
  | .hbm, ⟨0, _⟩ => ⟨S131072x256, .f32⟩
  | .hbm, ⟨1, _⟩ => ⟨S131072, .i32⟩
  | .hbm, ⟨2, _⟩ => ⟨S10000x256, .f32⟩
  | .hbm, ⟨3, _⟩ => ⟨S131072x1, .i32⟩
  | .hbm, ⟨4, _⟩ => ⟨S2x10000x256, .f32⟩
  | .hbm, ⟨5, _⟩ => ⟨S2x1x10000, .f32⟩
  | .hbm, ⟨6, _⟩ => ⟨S2x1x1, .f32⟩
  | .hbm, ⟨7, _⟩ => ⟨S1x10000x256, .f32⟩
  | .hbm, ⟨8, _⟩ => ⟨S10000x256, .f32⟩
  | .hbm, ⟨9, _⟩ => ⟨S1x10000x256, .f32⟩
  | .hbm, ⟨10, _⟩ => ⟨S10000x256, .f32⟩
  | .hbm, ⟨11, _⟩ => ⟨S10000x256, .f32⟩
  | .hbm, ⟨12, _⟩ => ⟨S1x1x10000, .f32⟩
  | .hbm, ⟨13, _⟩ => ⟨S10000, .f32⟩
  | .hbm, ⟨14, _⟩ => ⟨S1x1x10000, .f32⟩
  | .hbm, ⟨15, _⟩ => ⟨S10000, .f32⟩
  | .hbm, ⟨16, _⟩ => ⟨S10000, .f32⟩
  | .hbm, ⟨17, _⟩ => ⟨S1x1x1, .f32⟩
  | .hbm, ⟨18, _⟩ => ⟨S_, .f32⟩
  | .hbm, ⟨19, _⟩ => ⟨S1x1x1, .f32⟩
  | .hbm, ⟨20, _⟩ => ⟨S_, .f32⟩
  | .hbm, ⟨21, _⟩ => ⟨S_, .f32⟩
  | .hbm, ⟨22, _⟩ => ⟨S10000x1, .f32⟩
  | .hbm, ⟨23, _⟩ => ⟨S10000x256, .f32⟩
  | .hbm, ⟨24, _⟩ => ⟨S_, .f32⟩
  | .hbm, ⟨25, _⟩ => ⟨S_, .f32⟩
  | .hbm, ⟨26, _⟩ => ⟨S10000x256, .f32⟩
  | .hbm, ⟨27, _⟩ => ⟨S_, .f32⟩
  | .hbm, ⟨28, _⟩ => ⟨S10000, .f32⟩
  | .hbm, ⟨29, _⟩ => ⟨S10000, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S10000x1, .f32⟩
  | .hbm, ⟨40, _⟩ => ⟨S10000x1, .f32⟩
  | .hbm, ⟨41, _⟩ => ⟨S10000x256, .f32⟩
  | .hbm, ⟨42, _⟩ => ⟨S10000x256, .f32⟩
  | .hbm, ⟨43, _⟩ => ⟨S_, .f32⟩
  | .hbm, ⟨44, _⟩ => ⟨S10000x1, .f32⟩
  | .hbm, ⟨45, _⟩ => ⟨S10000x1, .i1⟩
  | .hbm, ⟨46, _⟩ => ⟨S10000x256, .f32⟩
  | .hbm, ⟨47, _⟩ => ⟨S_, .f32⟩
  | .hbm, ⟨48, _⟩ => ⟨S10000x256, .f32⟩
  | .hbm, ⟨49, _⟩ => ⟨S10000x256, .f32⟩
  | .hbm, ⟨50, _⟩ => ⟨S10000x256, .f32⟩
  | .hbm, ⟨51, _⟩ => ⟨S10000x256, .i1⟩
  | .hbm, ⟨52, _⟩ => ⟨S10000x256, .f32⟩
  | .local _ .vmem, ⟨0, _⟩ => ⟨S512x256, .f32⟩
  | .local _ .vmem, ⟨1, _⟩ => ⟨S512x256, .f32⟩
  | .local _ .vmem, ⟨2, _⟩ => ⟨S512x1, .i32⟩
  | .local _ .vmem, ⟨3, _⟩ => ⟨S512x1, .i32⟩
  | .local _ .vmem, ⟨4, _⟩ => ⟨S1x10000x256, .f32⟩
  | .local _ .vmem, ⟨5, _⟩ => ⟨S1x1x10000, .f32⟩
  | .local _ .vmem, ⟨6, _⟩ => ⟨S1x1x1, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst : Ref sig .tc := ⟨.hbm, 24, rfl⟩
abbrev main_v19 : Ref sig .tc := ⟨.hbm, 25, rfl⟩
abbrev main_v20 : Ref sig .tc := ⟨.hbm, 26, rfl⟩
abbrev main_cst_0 : Ref sig .tc := ⟨.hbm, 27, rfl⟩
abbrev main_v21 : Ref sig .tc := ⟨.hbm, 28, rfl⟩
abbrev main_v22 : Ref sig .tc := ⟨.hbm, 29, rfl⟩
abbrev main_cst_1 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_call0_v0 : Ref sig .tc := ⟨.hbm, 51, rfl⟩
abbrev main_v38 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨2, ![2, 128], ![false, false]⟩

def cc0_transform_0 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x10000x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x1x10000 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

class Facts₀ : Prop where
  shapeCasts_S131072_S131072x1 : S131072.ShapeCasts S131072x1
  inb_S1x10000x256_S1x10000x256_0_0_0 : ∀ a, (![0, 0, 0] : Fin 3 → Nat) a + S1x10000x256.size a ≤ S1x10000x256.size a
  h_S1x10000x256 : 0 < S1x10000x256.numel
  shapeCasts_S1x10000x256_S10000x256 : S1x10000x256.ShapeCasts S10000x256
  shapeCasts_S10000x256_S1x10000x256 : S10000x256.ShapeCasts S1x10000x256
  inb_S1x1x10000_S1x1x10000_0_0_0 : ∀ a, (![0, 0, 0] : Fin 3 → Nat) a + S1x1x10000.size a ≤ S1x1x10000.size a
  h_S1x1x10000 : 0 < S1x1x10000.numel
  shapeCasts_S1x1x10000_S1x10000 : S1x1x10000.ShapeCasts S1x10000
  shapeCasts_S1x10000_S1x1x10000 : S1x10000.ShapeCasts S1x1x10000
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  inb_S512x256_S512x256_0_0 : ∀ a, (![0, 0] : Fin 2 → Nat) a + S512x256.size a ≤ S512x256.size a
  h_S512x256 : 0 < S512x256.numel
  inb_S512x1_S512x1_0_0 : ∀ a, (![0, 0] : Fin 2 → Nat) a + S512x1.size a ≤ S512x1.size a
  h_S512x1 : 0 < S512x1.numel
  shapeCasts_S512x1_S512x1 : S512x1.ShapeCasts S512x1
  iota_S1x10000_d1_w32 : S1x10000.Iotas .tc 32 [1]
  broadcasts_S512x1_S512x10000 : S512x1.Broadcasts S512x10000
  broadcasts_S1x10000_S512x10000 : S1x10000.Broadcasts S512x10000
  natLt_1_32 : 1 < 32
  bitsLt_bf16_f32 : FTy.bits .bf16 < FTy.bits .f32
  reduces_S512x10000_S10000 : S512x10000.Reduces [0] S10000
  shapeCasts_S10000_S1x10000 : S10000.ShapeCasts S1x10000
  shapeCasts_S512x256_S1x512x256 : S512x256.ShapeCasts S1x512x256
  reduces_S1x512x256_S1 : S1x512x256.Reduces [1, 2] S1
  shapeCasts_S1_S1x1x1 : S1.ShapeCasts S1x1x1
  inpos_S1x1x1_p0_0_0 : ∀ a, (![0, 0, 0] : Fin 3 → Nat) a < S1x1x1.size a
  slices_S2x10000x256_S1x10000x256_0_0_0 : S2x10000x256.Slices ![0, 0, 0] S1x10000x256
  slices_S2x10000x256_S1x10000x256_1_0_0 : S2x10000x256.Slices ![1, 0, 0] S1x10000x256
  slices_S2x1x10000_S1x1x10000_0_0_0 : S2x1x10000.Slices ![0, 0, 0] S1x1x10000
  shapeCasts_S1x1x10000_S10000 : S1x1x10000.ShapeCasts S10000
  slices_S2x1x10000_S1x1x10000_1_0_0 : S2x1x10000.Slices ![1, 0, 0] S1x1x10000
  slices_S2x1x1_S1x1x1_0_0_0 : S2x1x1.Slices ![0, 0, 0] S1x1x1
  shapeCasts_S1x1x1_S_ : S1x1x1.ShapeCasts S_
  slices_S2x1x1_S1x1x1_1_0_0 : S2x1x1.Slices ![1, 0, 0] S1x1x1
  bcast_S10000_S10000x1_0 : S10000.BroadcastsInDim S10000x1 (![0] : Fin 1 → Fin S10000x1.rank)
  reducesTo_S10000x256_S_d0_1 : S10000x256.ReducesTo [0, 1] S_
  h_S_ : 0 < S_.numel
  reducesTo_S10000x256_S10000_d1 : S10000x256.ReducesTo [1] S10000
  reducesTo_S10000_S_d0 : S10000.ReducesTo [0] S_
  bcast_S_S10000x1 : S_.BroadcastsInDim S10000x1 (![] : Fin 0 → Fin S10000x1.rank)
  bcast_S10000x1_S10000x256_0_1 : S10000x1.BroadcastsInDim S10000x256 (![0, 1] : Fin 2 → Fin S10000x256.rank)
  bcast_S_S10000x256 : S_.BroadcastsInDim S10000x256 (![] : Fin 0 → Fin S10000x256.rank)
  dot_S512x10000_S512x256_S10000x256_0_0_1_1_n_n_wf : DotDims.WF S512x10000 S512x256 S10000x256 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S131072x256.size a
  hwx0_0 : ∀ i : grid0.Coords, EltTy.bits .f32 = 32 ∨ (Rect.block (s := S131072x256) S512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S131072x1.size a
  hwx0_1 : ∀ i : grid0.Coords, EltTy.bits .i32 = 32 ∨ (Rect.block (s := S131072x1) S512x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x10000x256.size a ≤ S2x10000x256.size a
  hwx0_2 : ∀ i : grid0.Coords, EltTy.bits .f32 = 32 ∨ (Rect.block (s := S2x10000x256) S1x10000x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1x10000.size a ≤ S2x1x10000.size a
  hwx0_3 : ∀ i : grid0.Coords, EltTy.bits .f32 = 32 ∨ (Rect.block (s := S2x1x10000) S1x1x10000.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1x1.size a ≤ S2x1x1.size a
  hwx0_4 : ∀ i : grid0.Coords, EltTy.bits .f32 = 32 ∨ (Rect.block (s := S2x1x1) S1x1x1.size (cc0_transform_4 i) (hinb0_4 i)).WholeWords (EltTy.packing .f32)

variable [Facts₀]

def dot_S512x10000_S512x256_S10000x256_0_0_1_1_n_n : DotDims S512x10000 S512x256 S10000x256 where
  lhsContracting := [0]
  rhsContracting := [0]
  lhsNonContracting := [1]
  rhsNonContracting := [1]
  lhsBatch := []
  rhsBatch := []
  wf := dot_S512x10000_S512x256_S10000x256_0_0_1_1_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x10000x256.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1x10000.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1_2) S1x1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S131072x256 : Shape := ⟨2, ![131072, 256]⟩
abbrev S131072 : Shape := ⟨1, ![131072]⟩
abbrev S10000x256 : Shape := ⟨2, ![10000, 256]⟩
abbrev S_ : Shape := ⟨0, ![]⟩
abbrev S131072x1 : Shape := ⟨2, ![131072, 1]⟩
abbrev S10000 : Shape := ⟨1, ![10000]⟩
abbrev S10000x1 : Shape := ⟨2, ![10000, 1]⟩

abbrev nBuf : Space → Nat
  | .hbm => 45
  | .vmem => 0
  | .smem => 0
  | _ => 0

abbrev bufTy : (tb : Table) → Fin (tcTables nBuf tb) → BufTy
  | .hbm, ⟨0, _⟩ => ⟨S131072x256, .f32⟩
  | .hbm, ⟨1, _⟩ => ⟨S131072, .i32⟩
  | .hbm, ⟨2, _⟩ => ⟨S10000x256, .f32⟩
  | .hbm, ⟨3, _⟩ => ⟨S_, .i32⟩
  | .hbm, ⟨4, _⟩ => ⟨S131072, .i32⟩
  | .hbm, ⟨5, _⟩ => ⟨S131072, .i1⟩
  | .hbm, ⟨6, _⟩ => ⟨S_, .i32⟩
  | .hbm, ⟨7, _⟩ => ⟨S131072, .i32⟩
  | .hbm, ⟨8, _⟩ => ⟨S131072, .i32⟩
  | .hbm, ⟨9, _⟩ => ⟨S131072, .i32⟩
  | .hbm, ⟨10, _⟩ => ⟨S131072x1, .i32⟩
  | .hbm, ⟨11, _⟩ => ⟨S131072x256, .f32⟩
  | .hbm, ⟨12, _⟩ => ⟨S131072x256, .f32⟩
  | .hbm, ⟨13, _⟩ => ⟨S131072x256, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S10000x256, .f32⟩
  | .hbm, ⟨20, _⟩ => ⟨S131072x1, .i32⟩
  | .hbm, ⟨21, _⟩ => ⟨S10000x256, .f32⟩
  | .hbm, ⟨22, _⟩ => ⟨S_, .f32⟩
  | .hbm, ⟨23, _⟩ => ⟨S131072, .f32⟩
  | .hbm, ⟨24, _⟩ => ⟨S_, .f32⟩
  | .hbm, ⟨25, _⟩ => ⟨S10000, .f32⟩
  | .hbm, ⟨26, _⟩ => ⟨S131072x1, .i32⟩
  | .hbm, ⟨27, _⟩ => ⟨S10000, .f32⟩
  | .hbm, ⟨28, _⟩ => ⟨S_, .f32⟩
  | .hbm, ⟨29, _⟩ => ⟨S10000, .f32⟩
  | .hbm, ⟨30, _⟩ => ⟨S10000, .f32⟩
  | .hbm, ⟨31, _⟩ => ⟨S10000x1, .f32⟩
  | .hbm, ⟨32, _⟩ => ⟨S10000x256, .f32⟩
  | .hbm, ⟨33, _⟩ => ⟨S10000x256, .f32⟩
  | .hbm, ⟨34, _⟩ => ⟨S_, .f32⟩
  | .hbm, ⟨35, _⟩ => ⟨S10000, .f32⟩
  | .hbm, ⟨36, _⟩ => ⟨S10000, .i1⟩
  | .hbm, ⟨37, _⟩ => ⟨S10000x1, .i1⟩
  | .hbm, ⟨38, _⟩ => ⟨S10000x256, .f32⟩
  | .hbm, ⟨39, _⟩ => ⟨S_, .f32⟩
  | .hbm, ⟨40, _⟩ => ⟨S10000x256, .f32⟩
  | .hbm, ⟨41, _⟩ => ⟨S10000x256, .f32⟩
  | .hbm, ⟨42, _⟩ => ⟨S10000x256, .f32⟩
  | .hbm, ⟨43, _⟩ => ⟨S10000x256, .i1⟩
  | .hbm, ⟨44, _⟩ => ⟨S10000x256, .f32⟩
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_call0_v0 : Ref sig .tc := ⟨.hbm, 43, rfl⟩
abbrev main_v30 : Ref sig .tc := ⟨.hbm, 44, rfl⟩

abbrev nD : Nat := 1
abbrev τ : Topo := Topo.v7x

variable {F : FTy → Type} [FloatOps F]

class Facts₀ : Prop where
  bcast_S_S131072 : S_.BroadcastsInDim S131072 (![] : Fin 0 → Fin S131072.rank)
  bcast_S131072_S131072x1_0 : S131072.BroadcastsInDim S131072x1 (![0] : Fin 1 → Fin S131072x1.rank)
  reducesTo_S131072x256_S_d0_1 : S131072x256.ReducesTo [0, 1] S_
  h_S_ : 0 < S_.numel
  bcast_S_S10000x256 : S_.BroadcastsInDim S10000x256 (![] : Fin 0 → Fin S10000x256.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x256_0_1 : S10000x1.BroadcastsInDim S10000x256 (![0, 1] : Fin 2 → Fin S10000x256.rank)
  gather_S10000x256_S131072x1_S131072x256_1_0_n_n_0_1_1256_wf : GatherDims.WF S10000x256 S131072x1 S131072x256 [1] [0] [] [0] [] 1 ![1, 256]
  scatter_S10000x256_S131072x1_S131072x256_1_0_0_1_wf : ScatterDims.WF S10000x256 S131072x1 S131072x256 [1] [0] [0] 1
  scatter_S10000_S131072x1_S131072_n_0_0_1_wf : ScatterDims.WF S10000 S131072x1 S131072 [] [0] [0] 1

variable [Facts₀]

def gather_S10000x256_S131072x1_S131072x256_1_0_n_n_0_1_1256 : GatherDims S10000x256 S131072x1 S131072x256 where
  offsetDims := [1]
  collapsedSliceDims := [0]
  operandBatchingDims := []
  startIndicesBatchingDims := []
  startIndexMap := [0]
  indexVectorDim := 1
  sliceSizes := ![1, 256]
  wf := gather_S10000x256_S131072x1_S131072x256_1_0_n_n_0_1_1256_wf
def scatter_S10000x256_S131072x1_S131072x256_1_0_0_1 : ScatterDims S10000x256 S131072x1 S131072x256 where
  updateWindowDims := [1]
  insertedWindowDims := [0]
  scatterDimsToOperandDims := [0]
  indexVectorDim := 1
  wf := scatter_S10000x256_S131072x1_S131072x256_1_0_0_1_wf
def scatter_S10000_S131072x1_S131072_n_0_0_1 : ScatterDims S10000 S131072x1 S131072 where
  updateWindowDims := []
  insertedWindowDims := [0]
  scatterDimsToOperandDims := [0]
  indexVectorDim := 1
  wf := scatter_S10000_S131072x1_S131072_n_0_0_1_wf

class Facts : Prop extends Facts₀ where

variable [Facts]
-- ==== Proof.KPieces.lean ====
/-
  What one run of the body leaves in the three accumulators, as values.

  The body adds, to each accumulator block, this row tile's contribution: to the [1, 10000, 256] block the product of
  the transposed one-hot label mask with the tile's features, to the [1, 1, 10000] block the mask's column counts, to
  the [1, 1, 1] block the tile's sum of squares. At the first tile of a half the three blocks are first overwritten
  with zeros, so the contribution is added to the zero block; at every other tile it is added to what the tile before
  left. Each accumulator is written by one store that covers its block (after the zeroing store, in the first case),
  and the stored value reads the whole input blocks and the whole accumulator.
-/
import proofs.«426006_j43258910605421_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Val

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-! ## A later tile of a half: the contribution is added to what the tile before left -/

theorem out_B_2 (c : Dev nD) (i : grid0.Coords) (arg2 : Memref sig .tc .vmem S512x256 .f32) (harg2 : arg2.IsWhole) (arg3 : Memref sig .tc .vmem S512x1 .i32) (harg3 : arg3.IsWhole) (arg4 : Memref sig .tc .vmem S1x10000x256 .f32) (harg4 : arg4.IsWhole) (arg5 : Memref sig .tc .vmem S1x1x10000 .f32) (harg5 : arg5.IsWhole) (arg6 : Memref sig .tc .vmem S1x1x1 .f32) (harg6 : arg6.IsWhole) (hc0 : ¬cond0_0 i)
    (x0 : Vec F S512x256 .f32) (x1 : Vec F S512x1 .i32) (xo2 : Vec F S1x10000x256 .f32) (xo3 : Vec F S1x1x10000 .f32) (xo4 : Vec F S1x1x1 .f32) :
    out0_B_2 c i arg2 harg2 arg3 harg3 arg4 harg4 arg5 harg5 arg6 harg6 hc0 x0 x1 xo2 xo3 xo4 = k0_pay8 x0 x1 xo2 := by
  unfold out0_B_2
  rw [View.read_writes_eq_canon _ _ _ (cover0_B_2 c i arg2 harg2 arg3 harg3 arg4 harg4 arg5 harg5 arg6 harg6 hc0 x0 x1 xo2 xo3 xo4)]
  unfold kernelRun0_B
  dsimp only
  sl_unfold_words
  rw [View.canon_unit_zero hz3]
  simp only [View.readAt_eq_ld, harg2.read_unread, harg3.read_unread, harg4.read_unread, harg5.read_unread, harg6.read_unread, View.ld_unit_zero (S := S512x256) hz2, View.ld_unit_zero (S := S512x1) hz2, View.ld_unit_zero (S := S1x10000x256) hz3, View.ld_unit_zero (S := S1x1x10000) hz3, View.ld_unit_zero (S := S1x1x1) hz3]

theorem out_B_3 (c : Dev nD) (i : grid0.Coords) (arg2 : Memref sig .tc .vmem S512x256 .f32) (harg2 : arg2.IsWhole) (arg3 : Memref sig .tc .vmem S512x1 .i32) (harg3 : arg3.IsWhole) (arg4 : Memref sig .tc .vmem S1x10000x256 .f32) (harg4 : arg4.IsWhole) (arg5 : Memref sig .tc .vmem S1x1x10000 .f32) (harg5 : arg5.IsWhole) (arg6 : Memref sig .tc .vmem S1x1x1 .f32) (harg6 : arg6.IsWhole) (hc0 : ¬cond0_0 i)
    (x0 : Vec F S512x256 .f32) (x1 : Vec F S512x1 .i32) (xo2 : Vec F S1x10000x256 .f32) (xo3 : Vec F S1x1x10000 .f32) (xo4 : Vec F S1x1x1 .f32) :
    out0_B_3 c i arg2 harg2 arg3 harg3 arg4 harg4 arg5 harg5 arg6 harg6 hc0 x0 x1 xo2 xo3 xo4 = k0_pay1 (k0_pay9 x1 xo3) := by
  unfold out0_B_3
  rw [View.read_writes_eq_canon _ _ _ (cover0_B_3 c i arg2 harg2 arg3 harg3 arg4 harg4 arg5 harg5 arg6 harg6 hc0 x0 x1 xo2 xo3 xo4)]
  unfold kernelRun0_B
  dsimp only
  sl_unfold_words
  rw [View.canon_unit_zero hz3]
  simp only [View.readAt_eq_ld, harg2.read_unread, harg3.read_unread, harg4.read_unread, harg5.read_unread, harg6.read_unread, View.ld_unit_zero (S := S512x256) hz2, View.ld_unit_zero (S := S512x1) hz2, View.ld_unit_zero (S := S1x10000x256) hz3, View.ld_unit_zero (S := S1x1x10000) hz3, View.ld_unit_zero (S := S1x1x1) hz3]

theorem out_B_4 (c : Dev nD) (i : grid0.Coords) (arg2 : Memref sig .tc .vmem S512x256 .f32) (harg2 : arg2.IsWhole) (arg3 : Memref sig .tc .vmem S512x1 .i32) (harg3 : arg3.IsWhole) (arg4 : Memref sig .tc .vmem S1x10000x256 .f32) (harg4 : arg4.IsWhole) (arg5 : Memref sig .tc .vmem S1x1x10000 .f32) (harg5 : arg5.IsWhole) (arg6 : Memref sig .tc .vmem S1x1x1 .f32) (harg6 : arg6.IsWhole) (hc0 : ¬cond0_0 i)
    (x0 : Vec F S512x256 .f32) (x1 : Vec F S512x1 .i32) (xo2 : Vec F S1x10000x256 .f32) (xo3 : Vec F S1x1x10000 .f32) (xo4 : Vec F S1x1x1 .f32) :
    out0_B_4 c i arg2 harg2 arg3 harg3 arg4 harg4 arg5 harg5 arg6 harg6 hc0 x0 x1 xo2 xo3 xo4 = k0_pay2 (k0_pay7 x0) xo4 := by
  unfold out0_B_4
  rw [View.read_writes_eq_canon _ _ _ (cover0_B_4 c i arg2 harg2 arg3 harg3 arg4 harg4 arg5 harg5 arg6 harg6 hc0 x0 x1 xo2 xo3 xo4)]
  unfold kernelRun0_B
  dsimp only
  sl_unfold_words
  rw [View.canon_unit_zero hz3]
  simp only [View.readAt_eq_ld, harg2.read_unread, harg3.read_unread, harg4.read_unread, harg5.read_unread, harg6.read_unread, View.ld_unit_zero (S := S512x256) hz2, View.ld_unit_zero (S := S512x1) hz2, View.ld_unit_zero (S := S1x10000x256) hz3, View.ld_unit_zero (S := S1x1x10000) hz3, View.ld_unit_zero (S := S1x1x1) hz3]

/-! ## The first tile of a half: the contribution is added to the zero block just stored -/

theorem out_A_2 (c : Dev nD) (i : grid0.Coords) (arg2 : Memref sig .tc .vmem S512x256 .f32) (harg2 : arg2.IsWhole) (arg3 : Memref sig .tc .vmem S512x1 .i32) (harg3 : arg3.IsWhole) (arg4 : Memref sig .tc .vmem S1x10000x256 .f32) (harg4 : arg4.IsWhole) (arg5 : Memref sig .tc .vmem S1x1x10000 .f32) (harg5 : arg5.IsWhole) (arg6 : Memref sig .tc .vmem S1x1x1 .f32) (harg6 : arg6.IsWhole) (hc0 : cond0_0 i)
    (x0 : Vec F S512x256 .f32) (x1 : Vec F S512x1 .i32) :
    out0_A_2 c i arg2 harg2 arg3 harg3 arg4 harg4 arg5 harg5 arg6 harg6 hc0 x0 x1 = k0_pay8 x0 x1 (k0_pay3 (F := F)) := by
  unfold out0_A_2
  rw [View.read_writes_eq_canon _ _ _ (cover0_A_2 c i arg2 harg2 arg3 harg3 arg4 harg4 arg5 harg5 arg6 harg6 hc0 x0 x1)]
  unfold kernelRun0_A
  dsimp only
  sl_unfold_words
  rw [View.canon_cons_unit_zero (S := S1x10000x256) hz3, View.readCov_unit_zero (S := S1x10000x256) _ hz3]
  simp only [View.readAt_eq_ld, harg2.read_unread, harg3.read_unread, harg4.read_unread, harg5.read_unread, harg6.read_unread, View.ld_unit_zero (S := S512x256) hz2, View.ld_unit_zero (S := S512x1) hz2, View.ld_unit_zero (S := S1x10000x256) hz3, View.ld_unit_zero (S := S1x1x10000) hz3, View.ld_unit_zero (S := S1x1x1) hz3]

theorem out_A_3 (c : Dev nD) (i : grid0.Coords) (arg2 : Memref sig .tc .vmem S512x256 .f32) (harg2 : arg2.IsWhole) (arg3 : Memref sig .tc .vmem S512x1 .i32) (harg3 : arg3.IsWhole) (arg4 : Memref sig .tc .vmem S1x10000x256 .f32) (harg4 : arg4.IsWhole) (arg5 : Memref sig .tc .vmem S1x1x10000 .f32) (harg5 : arg5.IsWhole) (arg6 : Memref sig .tc .vmem S1x1x1 .f32) (harg6 : arg6.IsWhole) (hc0 : cond0_0 i)
    (x0 : Vec F S512x256 .f32) (x1 : Vec F S512x1 .i32) :
    out0_A_3 c i arg2 harg2 arg3 harg3 arg4 harg4 arg5 harg5 arg6 harg6 hc0 x0 x1 = k0_pay1 (k0_pay9 x1 (k0_pay4 (F := F))) := by
  unfold out0_A_3
  rw [View.read_writes_eq_canon _ _ _ (cover0_A_3 c i arg2 harg2 arg3 harg3 arg4 harg4 arg5 harg5 arg6 harg6 hc0 x0 x1)]
  unfold kernelRun0_A
  dsimp only
  sl_unfold_words
  rw [View.canon_cons_unit_zero (S := S1x1x10000) hz3, View.readCov_unit_zero (S := S1x1x10000) _ hz3]
  simp only [View.readAt_eq_ld, harg2.read_unread, harg3.read_unread, harg4.read_unread, harg5.read_unread, harg6.read_unread, View.ld_unit_zero (S := S512x256) hz2, View.ld_unit_zero (S := S512x1) hz2, View.ld_unit_zero (S := S1x10000x256) hz3, View.ld_unit_zero (S := S1x1x10000) hz3, View.ld_unit_zero (S := S1x1x1) hz3]

theorem out_A_4 (c : Dev nD) (i : grid0.Coords) (arg2 : Memref sig .tc .vmem S512x256 .f32) (harg2 : arg2.IsWhole) (arg3 : Memref sig .tc .vmem S512x1 .i32) (harg3 : arg3.IsWhole) (arg4 : Memref sig .tc .vmem S1x10000x256 .f32) (harg4 : arg4.IsWhole) (arg5 : Memref sig .tc .vmem S1x1x10000 .f32) (harg5 : arg5.IsWhole) (arg6 : Memref sig .tc .vmem S1x1x1 .f32) (harg6 : arg6.IsWhole) (hc0 : cond0_0 i)
    (x0 : Vec F S512x256 .f32) (x1 : Vec F S512x1 .i32) :
    out0_A_4 c i arg2 harg2 arg3 harg3 arg4 harg4 arg5 harg5 arg6 harg6 hc0 x0 x1 = k0_pay2 (k0_pay7 x0) (k0_pay5 (F := F)) := by
  unfold out0_A_4
  rw [View.read_writes_eq_canon _ _ _ (cover0_A_4 c i arg2 harg2 arg3 harg3 arg4 harg4 arg5 harg5 arg6 harg6 hc0 x0 x1)]
  unfold kernelRun0_A
  dsimp only
  sl_unfold_words
  rw [View.canon_cons_unit_zero (S := S1x1x1) hz3, View.readCov_unit_zero (S := S1x1x1) _ hz3]
  simp only [View.readAt_eq_ld, harg2.read_unread, harg3.read_unread, harg4.read_unread, harg5.read_unread, harg6.read_unread, View.ld_unit_zero (S := S512x256) hz2, View.ld_unit_zero (S := S512x1) hz2, View.ld_unit_zero (S := S1x10000x256) hz3, View.ld_unit_zero (S := S1x1x10000) hz3, View.ld_unit_zero (S := S1x1x1) hz3]

end Cert.KernelIdeal.Val

end
-- ==== Proof.LibColumns.lean ====
/-
  A column kept by a row reduction: the two layout operations a sum over the last axis with the axis kept
  (`keepdims`) goes through before it meets the array it was taken from again, read at an index.

  An `[a]` vector of row values is cast to an `[a, 1]` column (row-major order is unchanged: entry `i` of the
  vector is entry `(i, 0)` of the column), and the column is broadcast along the second axis to `[a, b]`
  (every entry of row `p` reads the column at `p`). Both over any element type and any extents.
-/
import Idealize.ShloMosaic.Lib.Pipeline.Value
import Idealize.ShloMosaic.Lib.ValueIdx

namespace Cert.Columns

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.Columns
-- ==== Proof.KPayload.lean ====
/-
  The body's stored values read at one entry, over the extended reals.

  The first tile of a half stores zero blocks. Every tile then adds to three accumulators. With the one-hot mask
  m(r, c) = 1 if row r of the tile is labelled c (its label word is the word of c), else 0:
  the feature accumulator at (c, d) gains ∑ r, m(r, c) · x(r, d), a product of the transposed mask with the
  tile's features, and (if p then 1 else 0) · x = if p then x else 0; the count accumulator at c gains ∑ r, m(r, c), the mask summed
  over the rows; the sum-of-squares accumulator gains ∑ r, ∑ d, x(r, d)². Changes of float format are the identity on the
  extended reals, and the casts that drop or add a leading unit axis keep the other coordinates.
-/
import proofs.«426006_j43258910605421_3_alg».proof.Proof.Gen.KernelIdeal.Skeleton
import proofs.«426006_j43258910605421_3_alg».proof.Proof.LibColumns
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.ValueIdx

namespace Cert.KernelIdeal.Pay

open Cert.KernelIdeal Cert.KernelIdeal.Gen

/-- The zero blocks the first tile of a half stores. -/
theorem pay3_apply (j : S1x10000x256.Idx) : k0_pay3 (F := Ideal) j = 0 := by
  exact (show k0_pay3 (F := Ideal) j = Ideal.ofBits .f32 0x00000000#32 from rfl).trans Ideal.ofBits_zero_f32
theorem pay4_apply (j : S1x1x10000.Idx) : k0_pay4 (F := Ideal) j = 0 := by
  exact (show k0_pay4 (F := Ideal) j = Ideal.ofBits .f32 0x00000000#32 from rfl).trans Ideal.ofBits_zero_f32
theorem pay5_apply (j : S1x1x1.Idx) : k0_pay5 (F := Ideal) j = 0 := by
  exact (show k0_pay5 (F := Ideal) j = Ideal.ofBits .f32 0x00000000#32 from rfl).trans Ideal.ofBits_zero_f32

/-! ## The one-hot mask -/

/-- The signed integer-to-float conversion of a widened equality bit: one where the words are equal, zero elsewhere. -/
theorem sitofp_extui_cmpi_eq (a b : BitVec 32) :
    (FloatOps.sitofp (F := Ideal) .f32 ((IntOp.cmpi .eq a b).setWidth 32) : EReal) = if a = b then 1 else 0 := by
  show ((((IntOp.cmpi .eq a b).setWidth 32).toInt : ℝ) : EReal) = _
  by_cases h : a = b
  · rw [if_pos h]; subst h
    have e : IntOp.cmpi .eq a a = 1#1 := by
      show BitVec.ofBool (a == a) = 1#1
      rw [beq_self_eq_true]; rfl
    rw [e]
    have e2 : ((1#1 : BitVec 1).setWidth 32).toInt = 1 := by decide
    rw [e2]; simp
  · rw [if_neg h]
    have hb : (a == b) = false := beq_eq_false_iff_ne.mpr h
    have e : IntOp.cmpi .eq a b = 0#1 := by
      show BitVec.ofBool (a == b) = 0#1
      rw [hb]; rfl
    rw [e]
    have e2 : ((0#1 : BitVec 1).setWidth 32).toInt = 0 := by decide
    rw [e2]; simp

/-- The label column spread over the classes reads, at row r and class c, row r's label word. -/
theorem labels_apply (x1 : Vec Ideal S512x1 .i32) (h1 : S512x1.ShapeCasts S512x1) (h2 : S512x1.Broadcasts S512x10000)
    (r : Fin 512) (c : Fin 10000) :
    broadcastTo S512x10000 (shapeCast S512x1 x1 h1) h2 (ix2 r c) = x1 (ix2 r (0 : Fin 1)) :=
  (Cert.Columns.broadcastTo_a1_ab_apply _ h2 r c).trans (congrFun (shapeCast_self x1 h1) _)

/-- The class counter spread over the rows reads, at row r and class c, the word of c. -/
theorem classes_apply (hi : S1x10000.Iotas .tc 32 [1]) (h3 : S1x10000.Broadcasts S512x10000) (r : Fin 512) (c : Fin 10000) :
    broadcastTo S512x10000 (iota .tc S1x10000 32 [1] hi) h3 (ix2 r c) = BitVec.ofNat 32 c.val :=
  (broadcastTo_1b_ab_apply _ h3 r c).trans (iota_single_apply .tc S1x10000 32 1 hi (ix2 (0 : Fin 1) c))

/-- The one-hot mask at row r and class c: one if row r is labelled c, else zero. -/
theorem pay6_apply (x1 : Vec Ideal S512x1 .i32) (r : Fin 512) (c : Fin 10000) :
    k0_pay6 (F := Ideal) x1 (ix2 r c) = if x1 (ix2 r (0 : Fin 1)) = BitVec.ofNat 32 c.val then (1 : EReal) else 0 := by
  unfold k0_pay6
  refine Eq.trans ?_ (sitofp_extui_cmpi_eq (x1 (ix2 r (0 : Fin 1))) (BitVec.ofNat 32 c.val))
  show FloatOps.sitofp (F := Ideal) .f32 ((IntOp.cmpi .eq (broadcastTo S512x10000 (shapeCast S512x1 x1 _) _ (ix2 r c))
      (broadcastTo S512x10000 (iota .tc S1x10000 32 [1] _) _ (ix2 r c))).setWidth 32) = _
  rw [labels_apply, classes_apply]

/-! ## The feature accumulator -/

/-! The matrix product's operand indices. It contracts axis 0 of both operands: at output entry (c, d) and contraction
position r the left operand is read at (r, c) and the right one at (r, d). -/

theorem lhs_axis0 (j : S10000x256.Idx) (k : dot_S512x10000_S512x256_S10000x256_0_0_1_1_n_n.contr.Idx) :
    (dot_S512x10000_S512x256_S10000x256_0_0_1_1_n_n.lhsIdx j k (0 : Fin 2)).val = (k ⟨0, by decide⟩).val :=
  dot_S512x10000_S512x256_S10000x256_0_0_1_1_n_n.lhsIdx_val_of_single rfl j k

theorem lhs_axis1 (j : S10000x256.Idx) (k : dot_S512x10000_S512x256_S10000x256_0_0_1_1_n_n.contr.Idx) :
    (dot_S512x10000_S512x256_S10000x256_0_0_1_1_n_n.lhsIdx j k (1 : Fin 2)).val = (j (0 : Fin 2)).val := by
  unfold DotDims.lhsIdx
  rw [dif_neg (show ¬ (1 : Fin 2) ∈ dot_S512x10000_S512x256_S10000x256_0_0_1_1_n_n.lhsBatch by decide),
    dif_pos (show (1 : Fin 2) ∈ dot_S512x10000_S512x256_S10000x256_0_0_1_1_n_n.lhsNonContracting by decide)]
  rfl

theorem rhs_axis0 (j : S10000x256.Idx) (k : dot_S512x10000_S512x256_S10000x256_0_0_1_1_n_n.contr.Idx) :
    (dot_S512x10000_S512x256_S10000x256_0_0_1_1_n_n.rhsIdx j k (0 : Fin 2)).val = (k ⟨0, by decide⟩).val :=
  dot_S512x10000_S512x256_S10000x256_0_0_1_1_n_n.rhsIdx_val_of_single rfl j k

theorem rhs_axis1 (j : S10000x256.Idx) (k : dot_S512x10000_S512x256_S10000x256_0_0_1_1_n_n.contr.Idx) :
    (dot_S512x10000_S512x256_S10000x256_0_0_1_1_n_n.rhsIdx j k (1 : Fin 2)).val = (j (1 : Fin 2)).val := by
  unfold DotDims.rhsIdx
  rw [dif_neg (show ¬ (1 : Fin 2) ∈ dot_S512x10000_S512x256_S10000x256_0_0_1_1_n_n.rhsBatch by decide),
    dif_pos (show (1 : Fin 2) ∈ dot_S512x10000_S512x256_S10000x256_0_0_1_1_n_n.rhsNonContracting by decide)]
  rfl

/-- The product of a transposed [512, 10000] operand with a [512, 256] one, into a zero accumulator, at entry (c, d):
the sum over the 512 rows of the left operand at (r, c) times the right one at (r, d). -/
theorem matmulT_apply (M : FVec Ideal S512x10000 .bf16) (X : FVec Ideal S512x256 .bf16) (c : Fin 10000) (d : Fin 256) :
    matmul dot_S512x10000_S512x256_S10000x256_0_0_1_1_n_n none M X (constant (F := Ideal) S10000x256 .f32 0x00000000#32) (ix2 c d)
      = ∑ r : Fin 512, M (ix2 r c) * X (ix2 r d) := by
  refine (Ideal.matmul_constant_zero_apply dot_S512x10000_S512x256_S10000x256_0_0_1_1_n_n none M X (ix2 c d)).trans ?_
  rw [← Equiv.sum_comp (contrEquiv1 dot_S512x10000_S512x256_S10000x256_0_0_1_1_n_n 512 rfl rfl).symm]
  refine Finset.sum_congr rfl fun r _ => ?_
  have hl : dot_S512x10000_S512x256_S10000x256_0_0_1_1_n_n.lhsIdx (ix2 c d)
      ((contrEquiv1 dot_S512x10000_S512x256_S10000x256_0_0_1_1_n_n 512 rfl rfl).symm r) = ix2 r c := by
    funext a; refine Fin.ext ?_
    match a with
    | ⟨0, _⟩ => exact (lhs_axis0 _ _).trans (contrEquiv1_symm_val dot_S512x10000_S512x256_S10000x256_0_0_1_1_n_n 512 rfl rfl r)
    | ⟨1, _⟩ => exact lhs_axis1 _ _
  have hr : dot_S512x10000_S512x256_S10000x256_0_0_1_1_n_n.rhsIdx (ix2 c d)
      ((contrEquiv1 dot_S512x10000_S512x256_S10000x256_0_0_1_1_n_n 512 rfl rfl).symm r) = ix2 r d := by
    funext a; refine Fin.ext ?_
    match a with
    | ⟨0, _⟩ => exact (rhs_axis0 _ _).trans (contrEquiv1_symm_val dot_S512x10000_S512x256_S10000x256_0_0_1_1_n_n 512 rfl rfl r)
    | ⟨1, _⟩ => exact rhs_axis1 _ _
  rw [hl, hr]

/-- The feature accumulator after a tile: the entry before, plus the features of the tile's rows labelled `c`. -/
theorem pay8_apply (x0 : Vec Ideal S512x256 .f32) (x1 : Vec Ideal S512x1 .i32) (y : Vec Ideal S1x10000x256 .f32)
    (c : Fin 10000) (d : Fin 256) :
    k0_pay8 x0 x1 y (ix3 (0 : Fin 1) c d)
      = y (ix3 (0 : Fin 1) c d) + ∑ r : Fin 512, if x1 (ix2 r (0 : Fin 1)) = BitVec.ofNat 32 c.val then x0 (ix2 r d) else 0 := by
  unfold k0_pay8
  refine (shapeCast_ab_1ab_apply _ _ (0 : Fin 1) c d).trans ?_
  refine (addf_apply _ _ (ix2 c d)).trans ?_
  refine congrArg₂ (· + ·) (shapeCast_1ab_ab_apply y _ c d) ?_
  refine (matmulT_apply _ _ c d).trans ?_
  refine Finset.sum_congr rfl fun r _ => ?_
  show k0_pay6 (F := Ideal) x1 (ix2 r c) * x0 (ix2 r d) = _
  rw [pay6_apply]
  split
  · exact one_mul _
  · exact zero_mul _

/-! ## The count accumulator -/

/-- The sum over the rows (axis 0) of a [512, 10000] array reads, at class c, the sum over the 512 rows of column c. -/
theorem colsum_apply (src : FVec Ideal S512x10000 .f32) (h : S512x10000.Reduces [0] S10000) (hφ : FKind.Formats .f32)
    (hacc : (0x00000000#32 : BitVec 32) = FKind.add.neutral .f32 hφ) (c : Fin 10000) :
    multiReduction .add [0] S10000 src 0x00000000#32 h hφ hacc (ix1 c) = ∑ r : Fin 512, src (ix2 r c) := by
  refine (Ideal.multiReduction_add_single src 0x00000000#32 h hφ hacc (ix1 c)).trans ?_
  refine Finset.sum_congr rfl fun r _ => congrArg src ?_
  funext a; refine Fin.ext ?_
  match a with
  | ⟨0, _⟩ => rfl
  | ⟨1, _⟩ => rfl

/-- The count accumulator before its leading unit axis is put back. -/
theorem pay9_apply (x1 : Vec Ideal S512x1 .i32) (y : Vec Ideal S1x1x10000 .f32) (c : Fin 10000) :
    k0_pay9 x1 y (ix2 (0 : Fin 1) c)
      = y (ix3 (0 : Fin 1) (0 : Fin 1) c) + ∑ r : Fin 512, if x1 (ix2 r (0 : Fin 1)) = BitVec.ofNat 32 c.val then (1 : EReal) else 0 := by
  unfold k0_pay9
  refine (addf_apply _ _ (ix2 (0 : Fin 1) c)).trans ?_
  refine congrArg₂ (· + ·) (shapeCast_1ab_ab_apply y _ (0 : Fin 1) c) ?_
  refine (shapeCast_a_1a_apply _ _ (0 : Fin 1) c).trans ?_
  refine (colsum_apply _ _ _ _ c).trans ?_
  exact Finset.sum_congr rfl fun r _ => pay6_apply x1 r c

/-- The count accumulator after a tile: the entry before, plus the number of the tile's rows labelled `c`. -/
theorem pay19_apply (x1 : Vec Ideal S512x1 .i32) (y : Vec Ideal S1x1x10000 .f32) (c : Fin 10000) :
    k0_pay1 (k0_pay9 x1 y) (ix3 (0 : Fin 1) (0 : Fin 1) c)
      = y (ix3 (0 : Fin 1) (0 : Fin 1) c) + ∑ r : Fin 512, if x1 (ix2 r (0 : Fin 1)) = BitVec.ofNat 32 c.val then (1 : EReal) else 0 := by
  unfold k0_pay1
  exact (shapeCast_ab_1ab_apply _ _ (0 : Fin 1) (0 : Fin 1) c).trans (pay9_apply x1 y c)

/-! ## The sum-of-squares accumulator -/

/-- A rank-3 index set with a leading unit axis is the product of its two other coordinate ranges … -/
def idxEquiv1ab {n1 n2 : Nat} : (⟨3, ![1, n1, n2]⟩ : Shape).Idx ≃ Fin n1 × Fin n2 where
  toFun i := (i 1, i 2)
  invFun p := ix3 (0 : Fin 1) p.1 p.2
  left_inv i := by
    funext a
    match a with
    | ⟨0, _⟩ => exact Subsingleton.elim (α := Fin 1) _ _
    | ⟨1, _⟩ => rfl
    | ⟨2, _⟩ => rfl
  right_inv _ := rfl

/-- … so a sum over it is the double sum over those two coordinates. -/
theorem sum_idx1ab {M : Type*} [AddCommMonoid M] {n1 n2 : Nat} (f : (⟨3, ![1, n1, n2]⟩ : Shape).Idx → M) :
    ∑ i, f i = ∑ a : Fin n1, ∑ b : Fin n2, f (ix3 (0 : Fin 1) a b) := by
  rw [← Equiv.sum_comp (idxEquiv1ab (n1 := n1) (n2 := n2)).symm f, Fintype.sum_prod_type]
  rfl

/-- The sum of a [1, 512, 256] array over its two last axes, into the unit shape, is the double sum over rows and lanes. -/
theorem total_apply (src : FVec Ideal S1x512x256 .f32) (h : S1x512x256.Reduces [1, 2] S1) (hφ : FKind.Formats .f32)
    (hacc : (0x00000000#32 : BitVec 32) = FKind.add.neutral .f32 hφ) (j : S1.Idx) :
    multiReduction .add [1, 2] S1 src 0x00000000#32 h hφ hacc j = ∑ r : Fin 512, ∑ d : Fin 256, src (ix3 (0 : Fin 1) r d) :=
  (Ideal.multiReduction_add_total src 0x00000000#32 h (fun b => match b with | ⟨0, _⟩ => rfl) hφ hacc j).trans (sum_idx1ab src)

/-- A one-entry array cast to [1, 1, 1], its entry extracted and spread over [1, 1], reads that one entry everywhere. -/
theorem unit_read {α : Type} (v : S1.Idx → α) (h1 : S1.ShapeCasts S1x1x1)
    (h2 : ∀ a, (![0, 0, 0] : Fin 3 → Nat) a < S1x1x1.size a) (j : S1x1.Idx) :
    broadcast S1x1 (extractAt ![0, 0, 0] (shapeCast S1x1x1 v h1) h2) j = v (ix1 (0 : Fin 1)) := by
  unfold broadcast extractAt shapeCast
  refine congrArg v (funext fun a => ?_)
  match a with
  | ⟨0, _⟩ => exact Subsingleton.elim (α := Fin 1) _ _

/-- The tile's sum of squared features, spread over the unit shape. -/
theorem pay7_apply (x0 : Vec Ideal S512x256 .f32) (j : S1x1.Idx) :
    k0_pay7 x0 j = ∑ r : Fin 512, ∑ d : Fin 256, x0 (ix2 r d) * x0 (ix2 r d) := by
  unfold k0_pay7
  refine (unit_read _ _ _ j).trans ?_
  refine (total_apply _ _ _ _ _).trans ?_
  refine Finset.sum_congr rfl fun r _ => Finset.sum_congr rfl fun d _ => ?_
  refine (shapeCast_ab_1ab_apply _ _ (0 : Fin 1) r d).trans ?_
  exact mulf_apply (s := S512x256) (φ := .f32) x0 x0 (ix2 r d)

/-- The sum-of-squares accumulator after a tile: the entry before, plus the tile's squared features. -/
theorem pay27_apply (x0 : Vec Ideal S512x256 .f32) (y : Vec Ideal S1x1x1 .f32) :
    k0_pay2 (k0_pay7 x0) y (ix3 (0 : Fin 1) (0 : Fin 1) (0 : Fin 1))
      = y (ix3 (0 : Fin 1) (0 : Fin 1) (0 : Fin 1)) + ∑ r : Fin 512, ∑ d : Fin 256, x0 (ix2 r d) * x0 (ix2 r d) := by
  unfold k0_pay2
  refine (shapeCast_ab_1ab_apply _ _ (0 : Fin 1) (0 : Fin 1) (0 : Fin 1)).trans ?_
  refine (addf_apply _ _ (ix2 (0 : Fin 1) (0 : Fin 1))).trans ?_
  exact congrArg₂ (· + ·) (shapeCast_1ab_ab_apply y _ (0 : Fin 1) (0 : Fin 1)) (pay7_apply x0 _)

end Cert.KernelIdeal.Pay

end
-- ==== Proof.Spec.lean ====
/-
  The two programs' results as functions of the three argument arrays, in one vocabulary.

  Features `f` are a [131072, 256] array, labels `l` 131072 words, centres `cen` a [10000, 256] array. For a class
  `c` the rows labelled `c` are those whose label word is the word of `c`; `segSum` adds their features coordinate
  by coordinate, `count` counts them, `sumSq` is the sum of every squared feature. The first program computes the
  loss from these three (`kLoss`), the second from the squared differences between every row and the centre its label
  selects (`rLoss`); both move each centre half-way to its class mean where the class is present (`newCen`).
  Sums over the rows are also written over an interval of row numbers (`…Term`, total functions of a natural
  number that vanish past the last row), the form in which a running sum over consecutive row blocks is stated.
-/
import Idealize.ShloMosaic.PureOps.Ideal
import Idealize.ShloMosaic.Lib.ValueIdx

noncomputable section

open scoped BigOperators

namespace Cert.CenterLoss

open Idealize.ShloMosaic Idealize.ShloMosaic.ValueIdx

/-- The features, the labels and the centres, as arrays of extended reals and of words. -/
abbrev Feat : Type := (⟨2, ![131072, 256]⟩ : Shape).Idx → EReal
abbrev Lab : Type := (⟨1, ![131072]⟩ : Shape).Idx → BitVec 32
abbrev Cen : Type := (⟨2, ![10000, 256]⟩ : Shape).Idx → EReal

/-- Row `k`'s contribution to class `c`'s feature sum at coordinate `d`: the feature if the row is labelled `c`. -/
def segTerm (f : Feat) (l : Lab) (c : Fin 10000) (d : Fin 256) (k : ℕ) : EReal :=
  if h : k < 131072 then (if l (ix1 ⟨k, h⟩) = BitVec.ofNat 32 c.val then f (ix2 ⟨k, h⟩ d) else 0) else 0
/-- Row `k`'s contribution to class `c`'s count. -/
def cntTerm (l : Lab) (c : Fin 10000) (k : ℕ) : EReal :=
  if h : k < 131072 then (if l (ix1 ⟨k, h⟩) = BitVec.ofNat 32 c.val then 1 else 0) else 0
/-- Row `k`'s squared norm. -/
def sqTerm (f : Feat) (k : ℕ) : EReal :=
  if h : k < 131072 then ∑ d : Fin 256, f (ix2 ⟨k, h⟩ d) * f (ix2 ⟨k, h⟩ d) else 0

/-- Class `c`'s feature sum at coordinate `d`. -/
def segSum (f : Feat) (l : Lab) (c : Fin 10000) (d : Fin 256) : EReal :=
  ∑ i : Fin 131072, if l (ix1 i) = BitVec.ofNat 32 c.val then f (ix2 i d) else 0
/-- How many rows are labelled `c`. -/
def count (l : Lab) (c : Fin 10000) : EReal :=
  ∑ i : Fin 131072, if l (ix1 i) = BitVec.ofNat 32 c.val then (1 : EReal) else 0
/-- The sum of every squared feature. -/
def sumSq (f : Feat) : EReal := ∑ i : Fin 131072, ∑ d : Fin 256, f (ix2 i d) * f (ix2 i d)

theorem segSum_eq_range (f : Feat) (l : Lab) (c : Fin 10000) (d : Fin 256) :
    segSum f l c d = ∑ k ∈ Finset.range 131072, segTerm f l c d k := by
  unfold segSum
  rw [← Fin.sum_univ_eq_sum_range (fun k => segTerm f l c d k) 131072]
  exact Finset.sum_congr rfl fun i _ => by unfold segTerm; rw [dif_pos i.isLt]
theorem count_eq_range (l : Lab) (c : Fin 10000) : count l c = ∑ k ∈ Finset.range 131072, cntTerm l c k := by
  unfold count
  rw [← Fin.sum_univ_eq_sum_range (fun k => cntTerm l c k) 131072]
  exact Finset.sum_congr rfl fun i _ => by unfold cntTerm; rw [dif_pos i.isLt]
theorem sumSq_eq_range (f : Feat) : sumSq f = ∑ k ∈ Finset.range 131072, sqTerm f k := by
  unfold sumSq
  rw [← Fin.sum_univ_eq_sum_range (fun k => sqTerm f k) 131072]
  exact Finset.sum_congr rfl fun i _ => by unfold sqTerm; rw [dif_pos i.isLt]

/-- The first program's loss before the division: the squares, minus twice the class sums against the centres, plus
    the class counts against the centres' squared norms. -/
def kNum (f : Feat) (l : Lab) (cen : Cen) : EReal :=
  (sumSq f - Ideal.ofBits .f32 0x40000000#32 * (∑ c : Fin 10000, ∑ d : Fin 256, segSum f l c d * cen (ix2 c d)))
    + ∑ c : Fin 10000, count l c * ∑ d : Fin 256, cen (ix2 c d) * cen (ix2 c d)
/-- The first program's loss. -/
def kLoss (f : Feat) (l : Lab) (cen : Cen) : EReal := Ideal.div (kNum f l cen) (Ideal.ofBits .f32 0x4C000000#32)

/-- A label word as the second program's gather reads it: a negative one moved up by the number of classes. -/
def wrapLabel (w : BitVec 32) : BitVec 32 := Scalar.select (IntOp.cmpi .slt w 0#32) (IntOp.addi w 10000#32) w
/-- The row of the centres the gather reads for row `i`: the wrapped label read signed and clamped into the table. -/
def gatherRow (l : Lab) (i : Fin 131072) : Fin 10000 :=
  ⟨min (wrapLabel (l (ix1 i))).toInt.toNat 9999, by omega⟩
/-- The second program's loss before the division: every squared difference between a row and its gathered centre. -/
def rNum (f : Feat) (l : Lab) (cen : Cen) : EReal :=
  ∑ i : Fin 131072, ∑ d : Fin 256,
    (f (ix2 i d) - cen (ix2 (gatherRow l i) d)) * (f (ix2 i d) - cen (ix2 (gatherRow l i) d))
/-- The second program's loss. -/
def rLoss (f : Feat) (l : Lab) (cen : Cen) : EReal := Ideal.div (rNum f l cen) (Ideal.ofBits .f32 0x4C000000#32)

/-- One entry of the updated centres from its class's feature sum `S`, its class's count `N` and the old entry `x`:
    moved half-way to the class mean where the class is present, else kept. -/
def newCen (S N x : EReal) : EReal :=
  Scalar.select (Ideal.cmp .ogt N (Ideal.ofBits .f32 0x00000000#32))
    (x + Ideal.ofBits .f32 0x3F000000#32 * (Ideal.div S (max N (Ideal.ofBits .f32 0x3F800000#32)) - x)) x
/-- The updated centres, entry by entry. -/
def newCenArr (f : Feat) (l : Lab) (cen : Cen) : Cen :=
  fun j => newCen (segSum f l (j 0) (j 1)) (count l (j 0)) (cen j)

end Cert.CenterLoss

end
-- ==== Proof.KInv.lean ====
/-
  The running sums: what the three accumulators hold after each grid point.

  Point `n` of the grid is tile `n` of the rows (rows 512·n to 512·(n+1)); the points of a half (128 of them) share
  one block of each result, zeroed at the half's first point. So after point `n` the accumulators hold the
  contributions of the rows from the start of `n`'s half, row 65536·(n / 128), up to the end of tile `n`.
-/
import proofs.«426006_j43258910605421_3_alg».proof.Proof.Gen.KernelIdeal.Frame
import proofs.«426006_j43258910605421_3_alg».proof.Proof.KPieces
import proofs.«426006_j43258910605421_3_alg».proof.Proof.KPayload
import proofs.«426006_j43258910605421_3_alg».proof.Proof.Spec
import proofs.«426006_j43258910605421_3_alg».proof.Proof.LibColumns
import Idealize.ShloMosaic.Lib.Pipeline.Value
import Idealize.ShloMosaic.Lib.ValueIdx
import Idealize.ShloMosaic.Lib.ValueLayout
import Idealize.ShloMosaic.Lib.StableHlo.Run
import Mathlib.Algebra.BigOperators.Intervals
import Mathlib.Algebra.BigOperators.Fin

noncomputable section

open scoped BigOperators
open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.CenterLoss

variable (m : (ℓ : Loc nD τ sig) → Buf (Elt Ideal) ℓ)

/-- The features and the labels as launched. -/
abbrev feat (c : Dev nD) : Feat := m ((c.tc : Thread nD τ).loc main_arg0)
abbrev lab (c : Dev nD) : Lab := m ((c.tc : Thread nD τ).loc main_arg1)

/-- The block index of each input window at a grid point: the point's number along the rows, zero along the columns. -/
theorem idx_feat : ∀ t : Fin grid0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx_lab : ∀ t : Fin grid0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- Tile `t`'s block of the features ([512, 256]) and of the labels' column ([512, 1]), as the body reads them. -/
abbrev fblk (c : Dev nD) (t : Fin cfg0.N) : Vec Ideal S512x256 .f32 := iblk m c 0 t
abbrev lblk (c : Dev nD) (t : Fin cfg0.N) : Vec Ideal S512x1 .i32 := iblk m c 1 t

/-- Row `r` of tile `t`'s feature block is row `512·t + r` of the features. -/
theorem fblk_apply (c : Dev nD) (t : Fin cfg0.N) (r : Fin 512) (d : Fin 256) (hk : t.val * 512 + r.val < 131072) :
    fblk m c t (ix2 r d) = feat m c (ix2 ⟨t.val * 512 + r.val, hk⟩ d) := by
  unfold fblk iblk
  rw [View.read_apply]
  show V m c main_arg0 _ = m (c.tc.loc main_arg0) _
  rw [V_main_arg0]
  congr 1
  funext a
  apply Fin.ext
  match a with
  | ⟨0, _⟩ => show win0_0.index t 0 * 512 + 1 * r.val = t.val * 512 + r.val; rw [(idx_feat t).1]; omega
  | ⟨1, _⟩ => show win0_0.index t 1 * 256 + 1 * d.val = d.val; rw [(idx_feat t).2]; omega

/-- The labels' column as the region finds it: the launched labels cast from [131072] to [131072, 1]. -/
theorem labcol_eq (c : Dev nD) : (V m c main_v0 : S131072x1.Idx → BitVec 32)
      = shapeCast S131072x1 (m ((c.tc : Thread nD τ).loc main_arg1)) shapeCasts_S131072_S131072x1 := by
  show StableHlo.after hostOps0 (fun b => m (c, b)) (Proc.devRef .tc main_v0) = _
  after_results
  rfl

/-- Row `r` of tile `t`'s label block is label `512·t + r`. -/
theorem lblk_apply (c : Dev nD) (t : Fin cfg0.N) (r : Fin 512) (hk : t.val * 512 + r.val < 131072) :
    lblk m c t (ix2 r (0 : Fin 1)) = lab m c (ix1 ⟨t.val * 512 + r.val, hk⟩) := by
  unfold lblk iblk
  rw [View.read_apply]
  show V m c main_v0 _ = m (c.tc.loc main_arg1) _
  rw [labcol_eq]
  refine (congrArg _ ?_).trans (Cert.Columns.shapeCast_a_a1_apply (m ((c.tc : Thread nD τ).loc main_arg1)) shapeCasts_S131072_S131072x1 ⟨t.val * 512 + r.val, hk⟩ (0 : Fin 1))
  funext a
  apply Fin.ext
  match a with
  | ⟨0, _⟩ => show win0_1.index t 0 * 512 + 1 * r.val = t.val * 512 + r.val; rw [(idx_lab t).1]; omega
  | ⟨1, _⟩ => show win0_1.index t 1 * 1 + 1 * 0 = 0; rw [(idx_lab t).2]

/-- A sum over the 512 rows of tile `n` is the sum over the tile's interval of row numbers. -/
theorem tile_sum (g : ℕ → EReal) (n : ℕ) :
    ∑ r : Fin 512, g (n * 512 + r.val) = ∑ k ∈ Finset.Ico (n * 512) ((n + 1) * 512), g k := by
  rw [Finset.sum_Ico_eq_sum_range, show (n + 1) * 512 - n * 512 = 512 by omega]
  exact Fin.sum_univ_eq_sum_range (fun k => g (n * 512 + k)) 512

/-- Tile `t`'s contribution to class `c'`'s feature sum at coordinate `d`, over the tile's row numbers. -/
theorem seg_tile (c : Dev nD) (t : Fin cfg0.N) (c' : Fin 10000) (d : Fin 256) :
    (∑ r : Fin 512, if lblk m c t (ix2 r (0 : Fin 1)) = BitVec.ofNat 32 c'.val then fblk m c t (ix2 r d) else 0)
      = ∑ k ∈ Finset.Ico (t.val * 512) ((t.val + 1) * 512), segTerm (feat m c) (lab m c) c' d k := by
  have hN : cfg0.N = 256 := N_0
  have ht := t.isLt
  refine (Finset.sum_congr rfl fun r _ => ?_).trans (tile_sum (fun k => segTerm (feat m c) (lab m c) c' d k) t.val)
  have hk : t.val * 512 + r.val < 131072 := by have := r.isLt; omega
  unfold segTerm
  rw [dif_pos hk, fblk_apply m c t r d hk, lblk_apply m c t r hk]

/-- Tile `t`'s contribution to class `c'`'s count. -/
theorem cnt_tile (c : Dev nD) (t : Fin cfg0.N) (c' : Fin 10000) :
    (∑ r : Fin 512, if lblk m c t (ix2 r (0 : Fin 1)) = BitVec.ofNat 32 c'.val then (1 : EReal) else 0)
      = ∑ k ∈ Finset.Ico (t.val * 512) ((t.val + 1) * 512), cntTerm (lab m c) c' k := by
  have hN : cfg0.N = 256 := N_0
  have ht := t.isLt
  refine (Finset.sum_congr rfl fun r _ => ?_).trans (tile_sum (fun k => cntTerm (lab m c) c' k) t.val)
  have hk : t.val * 512 + r.val < 131072 := by have := r.isLt; omega
  unfold cntTerm
  rw [dif_pos hk, lblk_apply m c t r hk]

/-- Tile `t`'s contribution to the sum of squares. -/
theorem sq_tile (c : Dev nD) (t : Fin cfg0.N) :
    (∑ r : Fin 512, ∑ d : Fin 256, fblk m c t (ix2 r d) * fblk m c t (ix2 r d))
      = ∑ k ∈ Finset.Ico (t.val * 512) ((t.val + 1) * 512), sqTerm (feat m c) k := by
  have hN : cfg0.N = 256 := N_0
  have ht := t.isLt
  refine (Finset.sum_congr rfl fun r _ => ?_).trans (tile_sum (fun k => sqTerm (feat m c) k) t.val)
  have hk : t.val * 512 + r.val < 131072 := by have := r.isLt; omega
  unfold sqTerm
  rw [dif_pos hk]
  exact Finset.sum_congr rfl fun d _ => by rw [fblk_apply m c t r d hk]

/-- After point `n`: each accumulator holds the contributions of rows 65536·(n / 128) to 512·(n + 1). -/
theorem outsAt_eq (c : Dev nD) (n : ℕ) (h : n < cfg0.N) :
    (∀ (c' : Fin 10000) (d : Fin 256), (outsAt0 m c n h).1 (ix3 (0 : Fin 1) c' d)
        = ∑ k ∈ Finset.Ico (n / 128 * 65536) ((n + 1) * 512), segTerm (feat m c) (lab m c) c' d k)
    ∧ (∀ c' : Fin 10000, (outsAt0 m c n h).2.1 (ix3 (0 : Fin 1) (0 : Fin 1) c')
        = ∑ k ∈ Finset.Ico (n / 128 * 65536) ((n + 1) * 512), cntTerm (lab m c) c' k)
    ∧ (outsAt0 m c n h).2.2 (ix3 (0 : Fin 1) (0 : Fin 1) (0 : Fin 1))
        = ∑ k ∈ Finset.Ico (n / 128 * 65536) ((n + 1) * 512), sqTerm (feat m c) k := by
  have hN : cfg0.N = 256 := N_0
  induction n using Nat.strong_induction_on with
  | _ n ih =>
    by_cases h0 : n % 128 = 0
    · -- the first tile of a half: the accumulators are zeroed, and the half starts at this tile's first row
      have e : n / 128 * 65536 = n * 512 := by omega
      rw [outsAt0_A m c ⟨n, h⟩ h0, e]
      dsimp only
      refine ⟨fun c' d => ?_, fun c' => ?_, ?_⟩
      · refine (congrFun (Val.out_A_2 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) _ (fblk m c ⟨n, h⟩) (lblk m c ⟨n, h⟩)) (ix3 (0 : Fin 1) c' d)).trans ?_
        refine (Pay.pay8_apply (fblk m c ⟨n, h⟩) (lblk m c ⟨n, h⟩) (k0_pay3 (F := Ideal)) c' d).trans ?_
        rw [Pay.pay3_apply, zero_add]
        exact seg_tile m c ⟨n, h⟩ c' d
      · refine (congrFun (Val.out_A_3 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) _ (fblk m c ⟨n, h⟩) (lblk m c ⟨n, h⟩)) (ix3 (0 : Fin 1) (0 : Fin 1) c')).trans ?_
        refine (Pay.pay19_apply (lblk m c ⟨n, h⟩) (k0_pay4 (F := Ideal)) c').trans ?_
        rw [Pay.pay4_apply, zero_add]
        exact cnt_tile m c ⟨n, h⟩ c'
      · refine (congrFun (Val.out_A_4 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) _ (fblk m c ⟨n, h⟩) (lblk m c ⟨n, h⟩)) (ix3 (0 : Fin 1) (0 : Fin 1) (0 : Fin 1))).trans ?_
        refine (Pay.pay27_apply (fblk m c ⟨n, h⟩) (k0_pay5 (F := Ideal))).trans ?_
        rw [Pay.pay5_apply, zero_add]
        exact sq_tile m c ⟨n, h⟩
    · -- a later tile of a half: the tile's contribution is added to what the tile before left
      have hn1 : n - 1 < cfg0.N := by omega
      obtain ⟨ih1, ih2, ih3⟩ := ih (n - 1) (by omega) hn1
      have e : (n - 1) / 128 = n / 128 := by omega
      have e' : (n - 1 + 1) * 512 = n * 512 := by omega
      have hlo : n / 128 * 65536 ≤ n * 512 := by omega
      have hhi : n * 512 ≤ (n + 1) * 512 := by omega
      rw [e, e'] at ih1 ih2 ih3
      rw [outsAt0_B m c ⟨n, h⟩ h0]
      dsimp only
      refine ⟨fun c' d => ?_, fun c' => ?_, ?_⟩
      · refine (congrFun (Val.out_B_2 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) _ (fblk m c ⟨n, h⟩) (lblk m c ⟨n, h⟩) (outsAt0 m c (n - 1) hn1).1 (outsAt0 m c (n - 1) hn1).2.1 (outsAt0 m c (n - 1) hn1).2.2) (ix3 (0 : Fin 1) c' d)).trans ?_
        refine (Pay.pay8_apply (fblk m c ⟨n, h⟩) (lblk m c ⟨n, h⟩) (outsAt0 m c (n - 1) hn1).1 c' d).trans ?_
        rw [ih1 c' d, seg_tile m c ⟨n, h⟩ c' d]
        exact Finset.sum_Ico_consecutive _ hlo hhi
      · refine (congrFun (Val.out_B_3 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) _ (fblk m c ⟨n, h⟩) (lblk m c ⟨n, h⟩) (outsAt0 m c (n - 1) hn1).1 (outsAt0 m c (n - 1) hn1).2.1 (outsAt0 m c (n - 1) hn1).2.2) (ix3 (0 : Fin 1) (0 : Fin 1) c')).trans ?_
        refine (Pay.pay19_apply (lblk m c ⟨n, h⟩) (outsAt0 m c (n - 1) hn1).2.1 c').trans ?_
        rw [ih2 c', cnt_tile m c ⟨n, h⟩ c']
        exact Finset.sum_Ico_consecutive _ hlo hhi
      · refine (congrFun (Val.out_B_4 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) _ (fblk m c ⟨n, h⟩) (lblk m c ⟨n, h⟩) (outsAt0 m c (n - 1) hn1).1 (outsAt0 m c (n - 1) hn1).2.1 (outsAt0 m c (n - 1) hn1).2.2) (ix3 (0 : Fin 1) (0 : Fin 1) (0 : Fin 1))).trans ?_
        refine (Pay.pay27_apply (fblk m c ⟨n, h⟩) (outsAt0 m c (n - 1) hn1).2.2).trans ?_
        rw [ih3, sq_tile m c ⟨n, h⟩]
        exact Finset.sum_Ico_consecutive _ hlo hhi

end Cert.KernelIdeal.Acc

end
-- ==== Proof.KAccum.lean ====
/-
  The accumulators after the whole grid: what the three result arrays of the region hold.

  The grid's 256 points fall into two halves of 128; each result has one block per half, written to its array once,
  after the half's last point. By then the accumulators hold the contributions of all the rows of the half (rows
  65536·p to 65536·(p+1) for half p), and the two blocks together cover the array.
-/
import proofs.«426006_j43258910605421_3_alg».proof.Proof.Gen.KernelIdeal.Frame
import proofs.«426006_j43258910605421_3_alg».proof.Proof.KInv
import proofs.«426006_j43258910605421_3_alg».proof.Proof.Spec
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.CenterLoss

variable (m : (ℓ : Loc nD τ sig) → Buf (Elt Ideal) ℓ)

/-! ## The feature sums -/

/-- The feature-sum result's block at each point of the grid: half `t / 128`, the whole of the two other axes. -/
theorem segBlock : ∀ t : Fin cfg0.N, win0_2.index t (0 : Fin 3) = t.val / 128 ∧ win0_2.index t (1 : Fin 3) = 0
    ∧ win0_2.index t (2 : Fin 3) = 0 :=
  (by decide +kernel : ∀ t : Fin grid0.N, win0_2.index t (0 : Fin 3) = t.val / 128 ∧ win0_2.index t (1 : Fin 3) = 0
    ∧ win0_2.index t (2 : Fin 3) = 0)

/-- Half `p`'s feature sum of class `c'` at coordinate `d`. -/
def segHalf (c : Dev nD) (p : ℕ) (c' : Fin 10000) (d : Fin 256) : EReal :=
  ∑ k ∈ Finset.Ico (p * 65536) ((p + 1) * 65536), segTerm (feat m c) (lab m c) c' d k

/-- The feature-sum result as one function of its index. -/
abbrev segArr (c : Dev nD) : S2x10000x256.Idx → EReal := fun j => segHalf m c (j 0).val (j 1) (j 2)

/-- After the last point of a half the feature-sum accumulator is that half's block of `segArr`: the running sum then
    runs from the half's first row, 65536·(t / 128), to 512·(t + 1) = 65536·(t / 128 + 1). -/
theorem segFlushed (c : Dev nD) (t : Fin cfg0.N) (hf : (cfg0.win 2).flush t = true) :
    (dats m 0 c).flushed 2 t = ((cfg0.win 2).blk t).view.read (Elt Ideal) (segArr m c) := by
  have hN : cfg0.N = 256 := N_0
  have hlt : t.val < 256 := lt_of_lt_of_eq t.isLt hN
  have h127 : t.val % 128 = 127 := (flush0_2 t).mp hf
  obtain ⟨e0, e1, e2⟩ := segBlock t
  show (cfg0.win 2).cut (grid0.coords t) ((dats m 0 c).after 2 t) = _
  rw [after0_2]
  refine funext fun (y : S1x10000x256.Idx) => ?_
  obtain ⟨a, c', d, rfl⟩ : ∃ (a : Fin 1) (c' : Fin 10000) (d : Fin 256), y = ix3 a c' d := ⟨y 0, y 1, y 2, eq_ix3 y⟩
  obtain rfl : a = 0 := Subsingleton.elim _ _
  have hp : t.val / 128 < 2 := by omega
  have hemb : ((cfg0.win 2).blk t).view.emb (ix3 (0 : Fin 1) c' d) = ix3 (⟨t.val / 128, hp⟩ : Fin 2) c' d := by
    funext a; apply Fin.ext
    match a with
    | ⟨0, _⟩ => show win0_2.index t (0 : Fin 3) * 1 + 1 * (0 : Fin 1).val = t.val / 128; rw [e0]; simp
    | ⟨1, _⟩ => show win0_2.index t (1 : Fin 3) * 10000 + 1 * c'.val = c'.val; rw [e1]; omega
    | ⟨2, _⟩ => show win0_2.index t (2 : Fin 3) * 256 + 1 * d.val = d.val; rw [e2]; omega
  refine ((outsAt_eq m c t.val t.isLt).1 c' d).trans ?_
  show _ = segArr m c (((cfg0.win 2).blk t).view.emb (ix3 (0 : Fin 1) c' d))
  rw [hemb]
  show _ = segHalf m c (t.val / 128) c' d
  unfold segHalf
  rw [show (t.val + 1) * 512 = (t.val / 128 + 1) * 65536 by omega]

/-- An index of the feature-sum result lies in the block of point `t` iff each coordinate lies in the block's range. -/
theorem segMem (t : Fin cfg0.N) (i : S2x10000x256.Idx) :
    i ∈ ((cfg0.win 2).blk t).view.set ↔ ∀ a : Fin 3, win0_2.index t a * S1x10000x256.size a ≤ (i a).val
      ∧ (i a).val < win0_2.index t a * S1x10000x256.size a + S1x10000x256.size a := by
  show i ∈ ((View.whole main_v1_0).slice (win0_2.rect t)).set ↔ _
  rw [View.set_slice_whole, Rect.mem_set_unit]
  exact Iff.rfl

/-- Every index of the feature-sum result, of half `p`, lies in the block of the half's last point, 128·p + 127. -/
theorem segCover (i : S2x10000x256.Idx) :
    ∃ t : Fin cfg0.N, (cfg0.win 2).flush t = true ∧ i ∈ ((cfg0.win 2).blk t).view.set := by
  have hN : cfg0.N = 256 := N_0
  obtain ⟨p, c', d, rfl⟩ : ∃ (p : Fin 2) (c' : Fin 10000) (d : Fin 256), i = ix3 p c' d := ⟨i 0, i 1, i 2, eq_ix3 i⟩
  have hp : p.val < 2 := p.isLt
  have hc : c'.val < 10000 := c'.isLt
  have hd : d.val < 256 := d.isLt
  have ht : p.val * 128 + 127 < cfg0.N := by omega
  obtain ⟨e0, e1, e2⟩ := segBlock ⟨p.val * 128 + 127, ht⟩
  have e0' : win0_2.index ⟨p.val * 128 + 127, ht⟩ (0 : Fin 3) = p.val := by
    rw [e0]; show (p.val * 128 + 127) / 128 = p.val; omega
  refine ⟨⟨p.val * 128 + 127, ht⟩, (flush0_2 _).mpr (by show (p.val * 128 + 127) % 128 = 127; omega), ?_⟩
  rw [segMem]
  intro a
  match a with
  | ⟨0, _⟩ =>
    show win0_2.index ⟨p.val * 128 + 127, ht⟩ (0 : Fin 3) * 1 ≤ p.val
      ∧ p.val < win0_2.index ⟨p.val * 128 + 127, ht⟩ (0 : Fin 3) * 1 + 1
    rw [e0']; omega
  | ⟨1, _⟩ =>
    show win0_2.index ⟨p.val * 128 + 127, ht⟩ (1 : Fin 3) * 10000 ≤ c'.val
      ∧ c'.val < win0_2.index ⟨p.val * 128 + 127, ht⟩ (1 : Fin 3) * 10000 + 10000
    rw [e1]; omega
  | ⟨2, _⟩ =>
    show win0_2.index ⟨p.val * 128 + 127, ht⟩ (2 : Fin 3) * 256 ≤ d.val
      ∧ d.val < win0_2.index ⟨p.val * 128 + 127, ht⟩ (2 : Fin 3) * 256 + 256
    rw [e2]; omega

/-- Half `p` of the feature-sum result holds, at class `c'` and coordinate `d`, the features of the rows of that half
    (rows 65536·p to 65536·(p+1)) labelled `c'`. -/
theorem final2 (c : Dev nD) :
    (dats m 0 c).arrAt 2 cfg0.N = fun j : S2x10000x256.Idx =>
      ∑ k ∈ Finset.Ico ((j 0).val * 65536) (((j 0).val + 1) * 65536), segTerm (feat m c) (lab m c) (j 1) (j 2) k :=
  (dats m 0 c).arrAt_eq_of_cover 2 (segArr m c) (segFlushed m c) segCover

/-! ## The counts -/

/-- The count result's block at each point of the grid: half `t / 128`, the whole of the two other axes. -/
theorem cntBlock : ∀ t : Fin cfg0.N, win0_3.index t (0 : Fin 3) = t.val / 128 ∧ win0_3.index t (1 : Fin 3) = 0
    ∧ win0_3.index t (2 : Fin 3) = 0 :=
  (by decide +kernel : ∀ t : Fin grid0.N, win0_3.index t (0 : Fin 3) = t.val / 128 ∧ win0_3.index t (1 : Fin 3) = 0
    ∧ win0_3.index t (2 : Fin 3) = 0)

/-- Half `p`'s count of class `c'`. -/
def cntHalf (c : Dev nD) (p : ℕ) (c' : Fin 10000) : EReal :=
  ∑ k ∈ Finset.Ico (p * 65536) ((p + 1) * 65536), cntTerm (lab m c) c' k

/-- The count result as one function of its index. -/
abbrev cntArr (c : Dev nD) : S2x1x10000.Idx → EReal := fun j => cntHalf m c (j 0).val (j 2)

/-- After the last point of a half the count accumulator is that half's block of `cntArr`. -/
theorem cntFlushed (c : Dev nD) (t : Fin cfg0.N) (hf : (cfg0.win 3).flush t = true) :
    (dats m 0 c).flushed 3 t = ((cfg0.win 3).blk t).view.read (Elt Ideal) (cntArr m c) := by
  have hN : cfg0.N = 256 := N_0
  have hlt : t.val < 256 := lt_of_lt_of_eq t.isLt hN
  have h127 : t.val % 128 = 127 := (flush0_3 t).mp hf
  obtain ⟨e0, e1, e2⟩ := cntBlock t
  show (cfg0.win 3).cut (grid0.coords t) ((dats m 0 c).after 3 t) = _
  rw [after0_3]
  refine funext fun (y : S1x1x10000.Idx) => ?_
  obtain ⟨a, b, c', rfl⟩ : ∃ (a : Fin 1) (b : Fin 1) (c' : Fin 10000), y = ix3 a b c' := ⟨y 0, y 1, y 2, eq_ix3 y⟩
  obtain rfl : a = 0 := Subsingleton.elim _ _
  obtain rfl : b = 0 := Subsingleton.elim _ _
  have hp : t.val / 128 < 2 := by omega
  have hemb : ((cfg0.win 3).blk t).view.emb (ix3 (0 : Fin 1) (0 : Fin 1) c')
      = ix3 (⟨t.val / 128, hp⟩ : Fin 2) (0 : Fin 1) c' := by
    funext a; apply Fin.ext
    match a with
    | ⟨0, _⟩ => show win0_3.index t (0 : Fin 3) * 1 + 1 * (0 : Fin 1).val = t.val / 128; rw [e0]; simp
    | ⟨1, _⟩ => show win0_3.index t (1 : Fin 3) * 1 + 1 * (0 : Fin 1).val = (0 : Fin 1).val; rw [e1]; simp
    | ⟨2, _⟩ => show win0_3.index t (2 : Fin 3) * 10000 + 1 * c'.val = c'.val; rw [e2]; omega
  refine ((outsAt_eq m c t.val t.isLt).2.1 c').trans ?_
  show _ = cntArr m c (((cfg0.win 3).blk t).view.emb (ix3 (0 : Fin 1) (0 : Fin 1) c'))
  rw [hemb]
  show _ = cntHalf m c (t.val / 128) c'
  unfold cntHalf
  rw [show (t.val + 1) * 512 = (t.val / 128 + 1) * 65536 by omega]

/-- An index of the count result lies in the block of point `t` iff each coordinate lies in the block's range. -/
theorem cntMem (t : Fin cfg0.N) (i : S2x1x10000.Idx) :
    i ∈ ((cfg0.win 3).blk t).view.set ↔ ∀ a : Fin 3, win0_3.index t a * S1x1x10000.size a ≤ (i a).val
      ∧ (i a).val < win0_3.index t a * S1x1x10000.size a + S1x1x10000.size a := by
  show i ∈ ((View.whole main_v1_1).slice (win0_3.rect t)).set ↔ _
  rw [View.set_slice_whole, Rect.mem_set_unit]
  exact Iff.rfl

/-- Every index of the count result, of half `p`, lies in the block of the half's last point, 128·p + 127. -/
theorem cntCover (i : S2x1x10000.Idx) :
    ∃ t : Fin cfg0.N, (cfg0.win 3).flush t = true ∧ i ∈ ((cfg0.win 3).blk t).view.set := by
  have hN : cfg0.N = 256 := N_0
  obtain ⟨p, b, c', rfl⟩ : ∃ (p : Fin 2) (b : Fin 1) (c' : Fin 10000), i = ix3 p b c' := ⟨i 0, i 1, i 2, eq_ix3 i⟩
  have hp : p.val < 2 := p.isLt
  have hb : b.val < 1 := b.isLt
  have hc : c'.val < 10000 := c'.isLt
  have ht : p.val * 128 + 127 < cfg0.N := by omega
  obtain ⟨e0, e1, e2⟩ := cntBlock ⟨p.val * 128 + 127, ht⟩
  have e0' : win0_3.index ⟨p.val * 128 + 127, ht⟩ (0 : Fin 3) = p.val := by
    rw [e0]; show (p.val * 128 + 127) / 128 = p.val; omega
  refine ⟨⟨p.val * 128 + 127, ht⟩, (flush0_3 _).mpr (by show (p.val * 128 + 127) % 128 = 127; omega), ?_⟩
  rw [cntMem]
  intro a
  match a with
  | ⟨0, _⟩ =>
    show win0_3.index ⟨p.val * 128 + 127, ht⟩ (0 : Fin 3) * 1 ≤ p.val
      ∧ p.val < win0_3.index ⟨p.val * 128 + 127, ht⟩ (0 : Fin 3) * 1 + 1
    rw [e0']; omega
  | ⟨1, _⟩ =>
    show win0_3.index ⟨p.val * 128 + 127, ht⟩ (1 : Fin 3) * 1 ≤ b.val
      ∧ b.val < win0_3.index ⟨p.val * 128 + 127, ht⟩ (1 : Fin 3) * 1 + 1
    rw [e1]; omega
  | ⟨2, _⟩ =>
    show win0_3.index ⟨p.val * 128 + 127, ht⟩ (2 : Fin 3) * 10000 ≤ c'.val
      ∧ c'.val < win0_3.index ⟨p.val * 128 + 127, ht⟩ (2 : Fin 3) * 10000 + 10000
    rw [e2]; omega

/-- Half `p` of the count result holds, at class `c'`, the number of rows of that half labelled `c'`. -/
theorem final3 (c : Dev nD) :
    (dats m 0 c).arrAt 3 cfg0.N = fun j : S2x1x10000.Idx =>
      ∑ k ∈ Finset.Ico ((j 0).val * 65536) (((j 0).val + 1) * 65536), cntTerm (lab m c) (j 2) k :=
  (dats m 0 c).arrAt_eq_of_cover 3 (cntArr m c) (cntFlushed m c) cntCover

/-! ## The sum of squares -/

/-- The sum-of-squares result's block at each point of the grid: half `t / 128`. -/
theorem sqBlock : ∀ t : Fin cfg0.N, win0_4.index t (0 : Fin 3) = t.val / 128 ∧ win0_4.index t (1 : Fin 3) = 0
    ∧ win0_4.index t (2 : Fin 3) = 0 :=
  (by decide +kernel : ∀ t : Fin grid0.N, win0_4.index t (0 : Fin 3) = t.val / 128 ∧ win0_4.index t (1 : Fin 3) = 0
    ∧ win0_4.index t (2 : Fin 3) = 0)

/-- Half `p`'s sum of squared features. -/
def sqHalf (c : Dev nD) (p : ℕ) : EReal :=
  ∑ k ∈ Finset.Ico (p * 65536) ((p + 1) * 65536), sqTerm (feat m c) k

/-- The sum-of-squares result as one function of its index. -/
abbrev sqArr (c : Dev nD) : S2x1x1.Idx → EReal := fun j => sqHalf m c (j 0).val

/-- After the last point of a half the sum-of-squares accumulator is that half's block of `sqArr`. -/
theorem sqFlushed (c : Dev nD) (t : Fin cfg0.N) (hf : (cfg0.win 4).flush t = true) :
    (dats m 0 c).flushed 4 t = ((cfg0.win 4).blk t).view.read (Elt Ideal) (sqArr m c) := by
  have hN : cfg0.N = 256 := N_0
  have hlt : t.val < 256 := lt_of_lt_of_eq t.isLt hN
  have h127 : t.val % 128 = 127 := (flush0_4 t).mp hf
  obtain ⟨e0, e1, e2⟩ := sqBlock t
  show (cfg0.win 4).cut (grid0.coords t) ((dats m 0 c).after 4 t) = _
  rw [after0_4]
  refine funext fun (y : S1x1x1.Idx) => ?_
  obtain ⟨a, b, e, rfl⟩ : ∃ (a : Fin 1) (b : Fin 1) (e : Fin 1), y = ix3 a b e := ⟨y 0, y 1, y 2, eq_ix3 y⟩
  obtain rfl : a = 0 := Subsingleton.elim _ _
  obtain rfl : b = 0 := Subsingleton.elim _ _
  obtain rfl : e = 0 := Subsingleton.elim _ _
  have hp : t.val / 128 < 2 := by omega
  have hemb : ((cfg0.win 4).blk t).view.emb (ix3 (0 : Fin 1) (0 : Fin 1) (0 : Fin 1))
      = ix3 (⟨t.val / 128, hp⟩ : Fin 2) (0 : Fin 1) (0 : Fin 1) := by
    funext a; apply Fin.ext
    match a with
    | ⟨0, _⟩ => show win0_4.index t (0 : Fin 3) * 1 + 1 * (0 : Fin 1).val = t.val / 128; rw [e0]; simp
    | ⟨1, _⟩ => show win0_4.index t (1 : Fin 3) * 1 + 1 * (0 : Fin 1).val = (0 : Fin 1).val; rw [e1]; simp
    | ⟨2, _⟩ => show win0_4.index t (2 : Fin 3) * 1 + 1 * (0 : Fin 1).val = (0 : Fin 1).val; rw [e2]; simp
  refine ((outsAt_eq m c t.val t.isLt).2.2).trans ?_
  show _ = sqArr m c (((cfg0.win 4).blk t).view.emb (ix3 (0 : Fin 1) (0 : Fin 1) (0 : Fin 1)))
  rw [hemb]
  show _ = sqHalf m c (t.val / 128)
  unfold sqHalf
  rw [show (t.val + 1) * 512 = (t.val / 128 + 1) * 65536 by omega]

/-- An index of the sum-of-squares result lies in the block of point `t` iff each coordinate lies in the block's range. -/
theorem sqMem (t : Fin cfg0.N) (i : S2x1x1.Idx) :
    i ∈ ((cfg0.win 4).blk t).view.set ↔ ∀ a : Fin 3, win0_4.index t a * S1x1x1.size a ≤ (i a).val
      ∧ (i a).val < win0_4.index t a * S1x1x1.size a + S1x1x1.size a := by
  show i ∈ ((View.whole main_v1_2).slice (win0_4.rect t)).set ↔ _
  rw [View.set_slice_whole, Rect.mem_set_unit]
  exact Iff.rfl

/-- Every index of the sum-of-squares result, of half `p`, lies in the block of the half's last point, 128·p + 127. -/
theorem sqCover (i : S2x1x1.Idx) :
    ∃ t : Fin cfg0.N, (cfg0.win 4).flush t = true ∧ i ∈ ((cfg0.win 4).blk t).view.set := by
  have hN : cfg0.N = 256 := N_0
  obtain ⟨p, b, e, rfl⟩ : ∃ (p : Fin 2) (b : Fin 1) (e : Fin 1), i = ix3 p b e := ⟨i 0, i 1, i 2, eq_ix3 i⟩
  have hp : p.val < 2 := p.isLt
  have hb : b.val < 1 := b.isLt
  have he : e.val < 1 := e.isLt
  have ht : p.val * 128 + 127 < cfg0.N := by omega
  obtain ⟨e0, e1, e2⟩ := sqBlock ⟨p.val * 128 + 127, ht⟩
  have e0' : win0_4.index ⟨p.val * 128 + 127, ht⟩ (0 : Fin 3) = p.val := by
    rw [e0]; show (p.val * 128 + 127) / 128 = p.val; omega
  refine ⟨⟨p.val * 128 + 127, ht⟩, (flush0_4 _).mpr (by show (p.val * 128 + 127) % 128 = 127; omega), ?_⟩
  rw [sqMem]
  intro a
  match a with
  | ⟨0, _⟩ =>
    show win0_4.index ⟨p.val * 128 + 127, ht⟩ (0 : Fin 3) * 1 ≤ p.val
      ∧ p.val < win0_4.index ⟨p.val * 128 + 127, ht⟩ (0 : Fin 3) * 1 + 1
    rw [e0']; omega
  | ⟨1, _⟩ =>
    show win0_4.index ⟨p.val * 128 + 127, ht⟩ (1 : Fin 3) * 1 ≤ b.val
      ∧ b.val < win0_4.index ⟨p.val * 128 + 127, ht⟩ (1 : Fin 3) * 1 + 1
    rw [e1]; omega
  | ⟨2, _⟩ =>
    show win0_4.index ⟨p.val * 128 + 127, ht⟩ (2 : Fin 3) * 1 ≤ e.val
      ∧ e.val < win0_4.index ⟨p.val * 128 + 127, ht⟩ (2 : Fin 3) * 1 + 1
    rw [e2]; omega

/-- Half `p` of the sum-of-squares result holds the squared features of the rows of that half. -/
theorem final4 (c : Dev nD) :
    (dats m 0 c).arrAt 4 cfg0.N = fun j : S2x1x1.Idx =>
      ∑ k ∈ Finset.Ico ((j 0).val * 65536) (((j 0).val + 1) * 65536), sqTerm (feat m c) k :=
  (dats m 0 c).arrAt_eq_of_cover 4 (sqArr m c) (sqFlushed m c) sqCover

end Cert.KernelIdeal.Acc

end
-- ==== Proof.KTail.lean ====
/-
  The host lines after the region: the loss and the updated centres from the region's three result arrays.

  The two halves of each result are added; the loss is the sum of squares, minus twice the class sums against the
  centres, plus the class counts against the centres' squared norms, divided by the number of features; each centre
  entry moves half-way to its class mean where the class count is positive.
-/
import proofs.«426006_j43258910605421_3_alg».proof.Proof.Gen.KernelIdeal.Frame
import proofs.«426006_j43258910605421_3_alg».proof.Proof.Spec
import Idealize.ShloMosaic.Lib.Pipeline.Value
import Idealize.ShloMosaic.Lib.ValueIdx
import Idealize.ShloMosaic.Lib.ValueIdxRank1
import Idealize.ShloMosaic.Lib.ValueLayout
import Idealize.ShloMosaic.Lib.IdealHost
import Idealize.ShloMosaic.Lib.StableHlo.Run
import Idealize.ShloMosaic.Lib.StableHlo.Predicate
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelIdeal.Tail

open Cert.KernelIdeal Cert.KernelIdeal.Gen Cert.CenterLoss

variable (m : (ℓ : Loc nD τ sig) → Buf (Elt Ideal) ℓ)

/-- The centres as launched. -/
abbrev cen (c : Dev nD) : Cen := m ((c.tc : Thread nD τ).loc main_arg2)

section Layout
variable {α : Type}

/-- The first half of an array of two halves, read at an index. -/
theorem slice_half0 {n0 n1 : Nat} (X : (⟨3, ![2, n0, n1]⟩ : Shape).Idx → α)
    (h : (⟨3, ![2, n0, n1]⟩ : Shape).Slices ![0, 0, 0] ⟨3, ![1, n0, n1]⟩) (u : Fin 1) (i : Fin n0) (j : Fin n1) :
    extractStridedSlice ⟨3, ![1, n0, n1]⟩ ![0, 0, 0] X h (ix3 u i j) = X (ix3 (0 : Fin 2) i j) :=
  extractStridedSlice_apply _ X h _ _ fun a => match a with
    | ⟨0, _⟩ => by show (0 : ℕ) = 0 + u.val; omega
    | ⟨1, _⟩ => by show i.val = 0 + i.val; omega
    | ⟨2, _⟩ => by show j.val = 0 + j.val; omega

/-- The second half. -/
theorem slice_half1 {n0 n1 : Nat} (X : (⟨3, ![2, n0, n1]⟩ : Shape).Idx → α)
    (h : (⟨3, ![2, n0, n1]⟩ : Shape).Slices ![1, 0, 0] ⟨3, ![1, n0, n1]⟩) (u : Fin 1) (i : Fin n0) (j : Fin n1) :
    extractStridedSlice ⟨3, ![1, n0, n1]⟩ ![1, 0, 0] X h (ix3 u i j) = X (ix3 (1 : Fin 2) i j) :=
  extractStridedSlice_apply _ X h _ _ fun a => match a with
    | ⟨0, _⟩ => by show (1 : ℕ) = 1 + u.val; omega
    | ⟨1, _⟩ => by show i.val = 0 + i.val; omega
    | ⟨2, _⟩ => by show j.val = 0 + j.val; omega

/-- A [1, 1, a] array cast to [a] reads, at i, the operand at (0, 0, i). -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    omega)

/-- A [1, 1, 1] array cast to a scalar reads the operand's one entry. -/
theorem shapeCast_111_scalar_apply (x : (⟨3, ![1, 1, 1]⟩ : Shape).Idx → α)
    (h : (⟨3, ![1, 1, 1]⟩ : Shape).ShapeCasts ⟨0, ![]⟩) (j : (⟨0, ![]⟩ : Shape).Idx) :
    shapeCast ⟨0, ![]⟩ x h j = x (ix3 (0 : Fin 1) (0 : Fin 1) (0 : Fin 1)) :=
  shapeCast_apply x h _ _ (by
    rw [Shape.rowMajor_val_three]
    have := ((⟨0, ![]⟩ : Shape).rowMajor j).isLt
    show (0 * 1 + 0) * 1 + 0 = _
    have h1 : (⟨0, ![]⟩ : Shape).numel = 1 := rfl
    omega)

/-- A vector laid as an [n, 1] column reads, at (p, u), the vector at p. -/
theorem bcast_col_apply {n : Nat} (h₁ : (⟨1, ![n]⟩ : Shape).BroadcastsInDim ⟨2, ![n, 1]⟩ ![0])
    (v : (⟨1, ![n]⟩ : Shape).Idx → α) (p : Fin n) (u : Fin 1) :
    broadcastInDim ⟨2, ![n, 1]⟩ ![0] h₁ v (ix2 p u) = v (ix1 p) :=
  broadcastInDim_apply _ h₁ v _ _ fun a => match a with
    | ⟨0, _⟩ => by
      show p.val = if n = 1 then 0 else p.val
      split
      · omega
      · rfl

/-- An [n, 1] column laid along the rows of an [n, m] rectangle reads, at (p, q), the column at (p, 0). -/
theorem bcast_rect_apply {n m : Nat} (h₂ : (⟨2, ![n, 1]⟩ : Shape).BroadcastsInDim ⟨2, ![n, m]⟩ ![0, 1])
    (v : (⟨2, ![n, 1]⟩ : Shape).Idx → α) (p : Fin n) (q : Fin m) :
    broadcastInDim ⟨2, ![n, m]⟩ ![0, 1] h₂ v (ix2 p q) = v (ix2 p (0 : Fin 1)) :=
  broadcastInDim_apply _ h₂ v _ _ fun a => match a with
    | ⟨0, _⟩ => by
      show p.val = if n = 1 then 0 else p.val
      split
      · omega
      · rfl
    | ⟨1, _⟩ => by
      show (0 : ℕ) = if (1 : ℕ) = 1 then 0 else q.val
      rfl

end Layout

/-! ## The values the host lines compute, over abstract result arrays -/

section Values
variable (A2 : FVec Ideal S2x10000x256 .f32) (A3 : FVec Ideal S2x1x10000 .f32) (A4 : FVec Ideal S2x1x1 .f32)
  (cn : FVec Ideal S10000x256 .f32)

/-- The class sums: the two halves of the first result added. -/
def sums : FVec Ideal S10000x256 .f32 :=
  addf (fun i => shapeCast S10000x256 (extractStridedSlice S1x10000x256 ![0, 0, 0] A2 slices_S2x10000x256_S1x10000x256_0_0_0) shapeCasts_S1x10000x256_S10000x256 i)
    (fun i => shapeCast S10000x256 (extractStridedSlice S1x10000x256 ![1, 0, 0] A2 slices_S2x10000x256_S1x10000x256_1_0_0) shapeCasts_S1x10000x256_S10000x256 i)

/-- The class counts: the two halves of the second result added. -/
def counts : FVec Ideal S10000 .f32 :=
  addf (fun i => shapeCast S10000 (extractStridedSlice S1x1x10000 ![0, 0, 0] A3 slices_S2x1x10000_S1x1x10000_0_0_0) shapeCasts_S1x1x10000_S10000 i)
    (fun i => shapeCast S10000 (extractStridedSlice S1x1x10000 ![1, 0, 0] A3 slices_S2x1x10000_S1x1x10000_1_0_0) shapeCasts_S1x1x10000_S10000 i)

/-- The sum of squares: the two halves of the third result added. -/
def squares : FVec Ideal S_ .f32 :=
  addf (fun i => shapeCast S_ (extractStridedSlice S1x1x1 ![0, 0, 0] A4 slices_S2x1x1_S1x1x1_0_0_0) shapeCasts_S1x1x1_S_ i)
    (fun i => shapeCast S_ (extractStridedSlice S1x1x1 ![1, 0, 0] A4 slices_S2x1x1_S1x1x1_1_0_0) shapeCasts_S1x1x1_S_ i)

theorem sums_apply (p : Fin 10000) (q : Fin 256) :
    sums A2 (ix2 p q) = A2 (ix3 (0 : Fin 2) p q) + A2 (ix3 (1 : Fin 2) p q) := by
  unfold sums
  refine (addf_apply _ _ _).trans ?_
  refine congrArg₂ (· + ·) ?_ ?_
  · exact (shapeCast_1ab_ab_apply _ _ p q).trans (slice_half0 A2 _ 0 p q)
  · exact (shapeCast_1ab_ab_apply _ _ p q).trans (slice_half1 A2 _ 0 p q)

theorem counts_apply (p : Fin 10000) :
    counts A3 (ix1 p) = A3 (ix3 (0 : Fin 2) (0 : Fin 1) p) + A3 (ix3 (1 : Fin 2) (0 : Fin 1) p) := by
  unfold counts
  refine (addf_apply _ _ _).trans ?_
  refine congrArg₂ (· + ·) ?_ ?_
  · exact (shapeCast_11a_a_apply _ _ p).trans (slice_half0 A3 _ 0 0 p)
  · exact (shapeCast_11a_a_apply _ _ p).trans (slice_half1 A3 _ 0 0 p)

theorem squares_apply (j : S_.Idx) :
    squares A4 j = A4 (ix3 (0 : Fin 2) (0 : Fin 1) (0 : Fin 1)) + A4 (ix3 (1 : Fin 2) (0 : Fin 1) (0 : Fin 1)) := by
  unfold squares
  refine (addf_apply _ _ _).trans ?_
  refine congrArg₂ (· + ·) ?_ ?_
  · exact (shapeCast_111_scalar_apply _ _ j).trans (slice_half0 A4 _ 0 0 0)
  · exact (shapeCast_111_scalar_apply _ _ j).trans (slice_half1 A4 _ 0 0 0)

/-- The class sums against the centres, summed over every entry. -/
def dotSC : FVec Ideal S_ .f32 :=
  Host.reduceAdd (mulf (sums A2) cn) (constant S_ .f32 0x00000000#32) reducesTo_S10000x256_S_d0_1 h_S_

/-- Each centre's squared norm. -/
def norms : FVec Ideal S10000 .f32 :=
  Host.reduceAdd (mulf cn cn) (constant S_ .f32 0x00000000#32) reducesTo_S10000x256_S10000_d1 h_S_

/-- The class counts against the centres' squared norms, summed over the classes. -/
def dotNC : FVec Ideal S_ .f32 :=
  Host.reduceAdd (mulf (counts A3) (norms cn)) (constant S_ .f32 0x00000000#32) reducesTo_S10000_S_d0 h_S_

/-- The loss. -/
def loss : FVec Ideal S_ .f32 :=
  Host.divf (addf (subf (squares A4) (mulf (constant S_ .f32 0x40000000#32) (dotSC A2 cn))) (dotNC A3 cn))
    (constant S_ .f32 0x4C000000#32)

theorem dotSC_apply (j : S_.Idx) :
    dotSC A2 cn j = ∑ p : Fin 10000, ∑ q : Fin 256,
      (A2 (ix3 (0 : Fin 2) p q) + A2 (ix3 (1 : Fin 2) p q)) * cn (ix2 p q) := by
  unfold dotSC
  refine (hostReduceAdd_apply _ _ _ _ j).trans ?_
  refine (Ideal.hostReduceAdd_total _ (fun b => b.elim0) _ _ j).trans ?_
  refine (congrArg (· + _) ((constant_apply _ _).trans Ideal.ofBits_zero_f32)).trans ?_
  refine (zero_add _).trans ?_
  refine (sum_idx2 _).trans ?_
  refine Finset.sum_congr rfl fun p _ => Finset.sum_congr rfl fun q _ => ?_
  exact (mulf_apply _ _ _).trans (congrArg (· * _) (sums_apply A2 p q))

theorem norms_apply (p : Fin 10000) :
    norms cn (ix1 p) = ∑ q : Fin 256, cn (ix2 p q) * cn (ix2 p q) := by
  unfold norms
  refine (hostReduceAdd_apply _ _ _ _ _).trans ?_
  refine (Ideal.hostReduceAdd_single _ (by decide : S10000x256.Reduces [1] S10000) _ _ _).trans ?_
  refine (congrArg (· + _) ((constant_apply _ _).trans Ideal.ofBits_zero_f32)).trans ?_
  refine (zero_add _).trans ?_
  show ∑ q : Fin 256, _ = _
  refine Finset.sum_congr rfl fun q _ => ?_
  refine (mulf_apply _ _ _).trans ?_
  have e : (by decide : S10000x256.Reduces [1] S10000).lift (ix1 p) q = ix2 p q := by
    funext a; match a with | ⟨0, _⟩ => rfl | ⟨1, _⟩ => rfl
  rw [e]

theorem dotNC_apply (j : S_.Idx) :
    dotNC A3 cn j = ∑ p : Fin 10000, (A3 (ix3 (0 : Fin 2) (0 : Fin 1) p) + A3 (ix3 (1 : Fin 2) (0 : Fin 1) p))
      * ∑ q : Fin 256, cn (ix2 p q) * cn (ix2 p q) := by
  unfold dotNC
  refine (hostReduceAdd_apply _ _ _ _ j).trans ?_
  refine (Ideal.hostReduceAdd_total _ (fun b => b.elim0) _ _ j).trans ?_
  refine (congrArg (· + _) ((constant_apply _ _).trans Ideal.ofBits_zero_f32)).trans ?_
  refine (zero_add _).trans ?_
  refine (Equiv.sum_comp idxEquiv1.symm _).symm.trans ?_
  refine Finset.sum_congr rfl fun p _ => ?_
  show mulf (counts A3) (norms cn) (ix1 p) = _
  exact (mulf_apply _ _ _).trans (congrArg₂ (· * ·) (counts_apply A3 p) (norms_apply cn p))

theorem loss_apply (j : S_.Idx) :
    loss A2 A3 A4 cn j = Ideal.div
      (((A4 (ix3 (0 : Fin 2) (0 : Fin 1) (0 : Fin 1)) + A4 (ix3 (1 : Fin 2) (0 : Fin 1) (0 : Fin 1)))
          - Ideal.ofBits .f32 0x40000000#32
            * (∑ p : Fin 10000, ∑ q : Fin 256, (A2 (ix3 (0 : Fin 2) p q) + A2 (ix3 (1 : Fin 2) p q)) * cn (ix2 p q)))
        + ∑ p : Fin 10000, (A3 (ix3 (0 : Fin 2) (0 : Fin 1) p) + A3 (ix3 (1 : Fin 2) (0 : Fin 1) p))
            * ∑ q : Fin 256, cn (ix2 p q) * cn (ix2 p q))
      (Ideal.ofBits .f32 0x4C000000#32) := by
  unfold loss
  refine (hostDivf_apply _ _ j).trans ?_
  refine congrArg₂ Ideal.div ?_ (constant_apply _ _)
  refine (addf_apply _ _ j).trans ?_
  refine congrArg₂ (· + ·) ?_ (dotNC_apply A3 cn j)
  refine (subf_apply _ _ j).trans ?_
  refine congrArg₂ (· - ·) (squares_apply A4 j) ?_
  refine (mulf_apply _ _ j).trans ?_
  exact congrArg₂ (· * ·) (constant_apply _ _) (dotSC_apply A2 cn j)

/-- The class counts as a column. -/
def countCol : FVec Ideal S10000x1 .f32 := broadcastInDim S10000x1 ![0] bcast_S10000_S10000x1_0 (counts A3)

/-- The updated centres before the final choice: each entry moved half-way to its class mean. -/
def moved : FVec Ideal S10000x256 .f32 :=
  addf cn (mulf (broadcastInDim S10000x256 ![] bcast_S_S10000x256 (constant S_ .f32 0x3F000000#32))
    (subf (Host.divf (sums A2) (broadcastInDim S10000x256 ![0, 1] bcast_S10000x1_S10000x256_0_1
      (maximumf (countCol A3) (broadcastInDim S10000x1 ![] bcast_S_S10000x1 (constant S_ .f32 0x3F800000#32))))) cn))

/-- Where each class is present. -/
def present : IVec S10000x256 1 :=
  broadcastInDim S10000x256 ![0, 1] bcast_S10000x1_S10000x256_0_1
    (cmpf .ogt (countCol A3) (broadcastInDim S10000x1 ![] bcast_S_S10000x1 (constant S_ .f32 0x00000000#32)))

/-- The updated centres. -/
def centres : FVec Ideal S10000x256 .f32 := select (present A3) (moved A2 A3 cn) cn

theorem countCol_apply (p : Fin 10000) (u : Fin 1) :
    countCol A3 (ix2 p u) = A3 (ix3 (0 : Fin 2) (0 : Fin 1) p) + A3 (ix3 (1 : Fin 2) (0 : Fin 1) p) := by
  unfold countCol
  exact (bcast_col_apply _ _ p u).trans (counts_apply A3 p)

theorem moved_apply (p : Fin 10000) (q : Fin 256) :
    moved A2 A3 cn (ix2 p q) = cn (ix2 p q) + Ideal.ofBits .f32 0x3F000000#32
      * (Ideal.div (A2 (ix3 (0 : Fin 2) p q) + A2 (ix3 (1 : Fin 2) p q))
          (max (A3 (ix3 (0 : Fin 2) (0 : Fin 1) p) + A3 (ix3 (1 : Fin 2) (0 : Fin 1) p)) (Ideal.ofBits .f32 0x3F800000#32))
        - cn (ix2 p q)) := by
  unfold moved
  refine (addf_apply _ _ _).trans (congrArg (_ + ·) ?_)
  refine (mulf_apply _ _ _).trans (congrArg₂ (· * ·) ?_ ?_)
  · exact (broadcastInDim_scalar_apply _ _ _).trans (constant_apply _ _)
  refine (subf_apply _ _ _).trans (congrArg (· - _) ?_)
  refine (hostDivf_apply _ _ _).trans (congrArg₂ Ideal.div (sums_apply A2 p q) ?_)
  refine (bcast_rect_apply _ _ p q).trans ?_
  refine (maximumf_apply _ _ _).trans (congrArg₂ max (countCol_apply A3 p 0) ?_)
  exact (broadcastInDim_scalar_apply _ _ _).trans (constant_apply _ _)

theorem present_apply (p : Fin 10000) (q : Fin 256) :
    present A3 (ix2 p q) = Ideal.cmp .ogt (A3 (ix3 (0 : Fin 2) (0 : Fin 1) p) + A3 (ix3 (1 : Fin 2) (0 : Fin 1) p))
      (Ideal.ofBits .f32 0x00000000#32) := by
  unfold present
  refine (bcast_rect_apply _ _ p q).trans ?_
  refine (cmpf_apply _ _ _ _).trans ?_
  refine (Ideal.cmpf_def _ _ _).trans (congrArg₂ (Ideal.cmp .ogt) (countCol_apply A3 p 0) ?_)
  exact (broadcastInDim_scalar_apply _ _ _).trans (constant_apply _ _)

theorem centres_apply (p : Fin 10000) (q : Fin 256) :
    centres A2 A3 cn (ix2 p q) = newCen (A2 (ix3 (0 : Fin 2) p q) + A2 (ix3 (1 : Fin 2) p q))
      (A3 (ix3 (0 : Fin 2) (0 : Fin 1) p) + A3 (ix3 (1 : Fin 2) (0 : Fin 1) p)) (cn (ix2 p q)) := by
  unfold centres newCen
  refine (select_apply _ _ _ _).trans ?_
  rw [present_apply A3 p q, moved_apply A2 A3 cn p q]

end Values

/-! ## The two results -/

/-- The first result, the loss, after the host lines that follow the region, from the region's result arrays. -/
theorem tail_v27 (c : Dev nD) (A2 : FVec Ideal S2x10000x256 .f32) (A3 : FVec Ideal S2x1x10000 .f32) (A4 : FVec Ideal S2x1x1 .f32)
    (h2 : (dats m 0 c).arrAt 2 cfg0.N = A2) (h3 : (dats m 0 c).arrAt 3 cfg0.N = A3) (h4 : (dats m 0 c).arrAt 4 cfg0.N = A4) :
    Pipeline.afterTail₀ cfgs (dats m) 0 (V0 m) [hostOps1, hostOps1_1] c main_v27
      = fun _ => Ideal.div
          (((A4 (ix3 (0 : Fin 2) (0 : Fin 1) (0 : Fin 1)) + A4 (ix3 (1 : Fin 2) (0 : Fin 1) (0 : Fin 1)))
              - Ideal.ofBits .f32 0x40000000#32
                * (∑ c' : Fin 10000, ∑ d : Fin 256, (A2 (ix3 (0 : Fin 2) c' d) + A2 (ix3 (1 : Fin 2) c' d)) * cen m c (ix2 c' d)))
            + ∑ c' : Fin 10000, (A3 (ix3 (0 : Fin 2) (0 : Fin 1) c') + A3 (ix3 (1 : Fin 2) (0 : Fin 1) c'))
                * ∑ d : Fin 256, cen m c (ix2 c' d) * cen m c (ix2 c' d))
          (Ideal.ofBits .f32 0x4C000000#32) := by
  have e2 : Pipeline.withArrays (cfgs 0).spec c (V0 m c) (fun w => (dats m 0 c).arrAt w (cfgs 0).N) (Proc.devRef .tc main_v1_0) = A2 :=
    (Pipeline.withArrays_arr spec0 launch0.win.arr_inj c (V0 m c) (fun w => (dats m 0 c).arrAt w (cfgs 0).N) 2).trans h2
  have e3 : Pipeline.withArrays (cfgs 0).spec c (V0 m c) (fun w => (dats m 0 c).arrAt w (cfgs 0).N) (Proc.devRef .tc main_v1_1) = A3 :=
    (Pipeline.withArrays_arr spec0 launch0.win.arr_inj c (V0 m c) (fun w => (dats m 0 c).arrAt w (cfgs 0).N) 3).trans h3
  have e4 : Pipeline.withArrays (cfgs 0).spec c (V0 m c) (fun w => (dats m 0 c).arrAt w (cfgs 0).N) (Proc.devRef .tc main_v1_2) = A4 :=
    (Pipeline.withArrays_arr spec0 launch0.win.arr_inj c (V0 m c) (fun w => (dats m 0 c).arrAt w (cfgs 0).N) 4).trans h4
  have ec : Pipeline.withArrays (cfgs 0).spec c (V0 m c) (fun w => (dats m 0 c).arrAt w (cfgs 0).N) (Proc.devRef .tc main_arg2) = cen m c :=
    (Pipeline.withArrays_of_ne spec0 c (V0 m c) (fun w => (dats m 0 c).arrAt w (cfgs 0).N) main_arg2
      (by exact (by decide : ∀ w, Pipeline.arrRef spec0 w ≠ main_arg2))).trans (V_main_arg2 m c)
  unfold Pipeline.afterTail₀
  simp only [hostOps1, hostOps1_1, List.flatten_cons, List.flatten_nil, List.append_nil, List.cons_append, List.nil_append]
  after_results_simp
  rw [e2, e3, e4, ec]
  funext j
  exact loss_apply A2 A3 A4 (cen m c) j

/-- The second result, the updated centres, after the host lines that follow the region. -/
theorem tail_v38 (c : Dev nD) (A2 : FVec Ideal S2x10000x256 .f32) (A3 : FVec Ideal S2x1x10000 .f32)
    (h2 : (dats m 0 c).arrAt 2 cfg0.N = A2) (h3 : (dats m 0 c).arrAt 3 cfg0.N = A3) :
    Pipeline.afterTail₀ cfgs (dats m) 0 (V0 m) [hostOps1, hostOps1_1] c main_v38
      = fun j : S10000x256.Idx => newCen (A2 (ix3 (0 : Fin 2) (j 0) (j 1)) + A2 (ix3 (1 : Fin 2) (j 0) (j 1)))
          (A3 (ix3 (0 : Fin 2) (0 : Fin 1) (j 0)) + A3 (ix3 (1 : Fin 2) (0 : Fin 1) (j 0))) (cen m c j) := by
  have e2 : Pipeline.withArrays (cfgs 0).spec c (V0 m c) (fun w => (dats m 0 c).arrAt w (cfgs 0).N) (Proc.devRef .tc main_v1_0) = A2 :=
    (Pipeline.withArrays_arr spec0 launch0.win.arr_inj c (V0 m c) (fun w => (dats m 0 c).arrAt w (cfgs 0).N) 2).trans h2
  have e3 : Pipeline.withArrays (cfgs 0).spec c (V0 m c) (fun w => (dats m 0 c).arrAt w (cfgs 0).N) (Proc.devRef .tc main_v1_1) = A3 :=
    (Pipeline.withArrays_arr spec0 launch0.win.arr_inj c (V0 m c) (fun w => (dats m 0 c).arrAt w (cfgs 0).N) 3).trans h3
  have ec : Pipeline.withArrays (cfgs 0).spec c (V0 m c) (fun w => (dats m 0 c).arrAt w (cfgs 0).N) (Proc.devRef .tc main_arg2) = cen m c :=
    (Pipeline.withArrays_of_ne spec0 c (V0 m c) (fun w => (dats m 0 c).arrAt w (cfgs 0).N) main_arg2
      (by exact (by decide : ∀ w, Pipeline.arrRef spec0 w ≠ main_arg2))).trans (V_main_arg2 m c)
  unfold Pipeline.afterTail₀
  simp only [hostOps1, hostOps1_1, List.flatten_cons, List.flatten_nil, List.append_nil, List.cons_append, List.nil_append]
  after_results_simp
  rw [e2, e3, ec]
  refine funext fun (j : S10000x256.Idx) => ?_
  refine Eq.trans ?_ ((centres_apply A2 A3 (cen m c) (j 0) (j 1)).trans ?_)
  · exact congrArg (centres A2 A3 (cen m c)) (eq_ix2 j)
  · exact congrArg (fun i => newCen (A2 (ix3 (0 : Fin 2) (j 0) (j 1)) + A2 (ix3 (1 : Fin 2) (j 0) (j 1)))
      (A3 (ix3 (0 : Fin 2) (0 : Fin 1) (j 0)) + A3 (ix3 (1 : Fin 2) (0 : Fin 1) (j 0))) (cen m c i)) (eq_ix2 j).symm

end Cert.KernelIdeal.Tail

end
-- ==== Proof.KRun.lean ====
/-
  The first program's run, read: its two results as functions of the argument arrays.

  The region leaves, in each half of its three result arrays, the sums over that half's rows; the host lines after it
  add the halves — the sum over rows 0 to 65536 and the sum over rows 65536 to 131072 are the sum over every row — and
  form the loss and the updated centres.
-/
import proofs.«426006_j43258910605421_3_alg».proof.Proof.Gen.KernelIdeal.Frame
import proofs.«426006_j43258910605421_3_alg».proof.Proof.KAccum
import proofs.«426006_j43258910605421_3_alg».proof.Proof.KTail
import proofs.«426006_j43258910605421_3_alg».proof.Proof.Spec

noncomputable section

open scoped BigOperators
open Idealize.ShloMosaic Idealize.ShloMosaic.TcCoe Idealize.SL.Sem Idealize.ShloMosaic.ValueIdx
open Idealize.ShloMosaic.Pipeline (Dat)

namespace Cert.KernelIdeal.Run

open Cert.KernelIdeal Cert.KernelIdeal.Gen Cert.CenterLoss Cert.KernelIdeal.Acc Cert.KernelIdeal.Tail

/-- A sum over the rows of the first half plus the sum over the rows of the second is the sum over every row. -/
theorem halves (g : ℕ → EReal) :
    (∑ k ∈ Finset.Ico 0 65536, g k) + (∑ k ∈ Finset.Ico 65536 131072, g k) = ∑ k ∈ Finset.range 131072, g k := by
  rw [Finset.range_eq_Ico]
  exact Finset.sum_Ico_consecutive g (by norm_num) (by norm_num)

/-- The two halves of a class's feature sum, read at the two half-blocks of the result array, make the class's sum. -/
theorem seg_halves (f : Feat) (l : Lab) (c' : Fin 10000) (d : Fin 256) :
    (∑ k ∈ Finset.Ico (((ix3 (0 : Fin 2) c' d) 0).val * 65536) ((((ix3 (0 : Fin 2) c' d) 0).val + 1) * 65536),
        segTerm f l ((ix3 (0 : Fin 2) c' d) 1) ((ix3 (0 : Fin 2) c' d) 2) k)
      + (∑ k ∈ Finset.Ico (((ix3 (1 : Fin 2) c' d) 0).val * 65536) ((((ix3 (1 : Fin 2) c' d) 0).val + 1) * 65536),
        segTerm f l ((ix3 (1 : Fin 2) c' d) 1) ((ix3 (1 : Fin 2) c' d) 2) k)
      = segSum f l c' d := by
  have e00 : (ix3 (0 : Fin 2) c' d) 0 = (0 : Fin 2) := rfl
  have e10 : (ix3 (1 : Fin 2) c' d) 0 = (1 : Fin 2) := rfl
  have e01 : (ix3 (0 : Fin 2) c' d) 1 = c' := rfl
  have e11 : (ix3 (1 : Fin 2) c' d) 1 = c' := rfl
  have e02 : (ix3 (0 : Fin 2) c' d) 2 = d := rfl
  have e12 : (ix3 (1 : Fin 2) c' d) 2 = d := rfl
  simp only [e00, e10, e01, e11, e02, e12]
  rw [segSum_eq_range]
  exact halves _
/-- The same for a class's count. -/
theorem cnt_halves (l : Lab) (c' : Fin 10000) :
    (∑ k ∈ Finset.Ico (((ix3 (0 : Fin 2) (0 : Fin 1) c') 0).val * 65536) ((((ix3 (0 : Fin 2) (0 : Fin 1) c') 0).val + 1) * 65536),
        cntTerm l ((ix3 (0 : Fin 2) (0 : Fin 1) c') 2) k)
      + (∑ k ∈ Finset.Ico (((ix3 (1 : Fin 2) (0 : Fin 1) c') 0).val * 65536) ((((ix3 (1 : Fin 2) (0 : Fin 1) c') 0).val + 1) * 65536),
        cntTerm l ((ix3 (1 : Fin 2) (0 : Fin 1) c') 2) k)
      = count l c' := by
  have e00 : (ix3 (0 : Fin 2) (0 : Fin 1) c') 0 = (0 : Fin 2) := rfl
  have e10 : (ix3 (1 : Fin 2) (0 : Fin 1) c') 0 = (1 : Fin 2) := rfl
  have e02 : (ix3 (0 : Fin 2) (0 : Fin 1) c') 2 = c' := rfl
  have e12 : (ix3 (1 : Fin 2) (0 : Fin 1) c') 2 = c' := rfl
  simp only [e00, e10, e02, e12]
  rw [count_eq_range]
  exact halves _
/-- The same for the sum of squares. -/
theorem sq_halves (f : Feat) :
    (∑ k ∈ Finset.Ico (((ix3 (0 : Fin 2) (0 : Fin 1) (0 : Fin 1)) 0).val * 65536) ((((ix3 (0 : Fin 2) (0 : Fin 1) (0 : Fin 1)) 0).val + 1) * 65536), sqTerm f k)
      + (∑ k ∈ Finset.Ico (((ix3 (1 : Fin 2) (0 : Fin 1) (0 : Fin 1)) 0).val * 65536) ((((ix3 (1 : Fin 2) (0 : Fin 1) (0 : Fin 1)) 0).val + 1) * 65536), sqTerm f k)
      = sumSq f := by
  rw [sumSq_eq_range]; exact halves _

variable (m : (ℓ : Loc nD τ sig) → Buf (Elt Ideal) ℓ) (ρ : Dev nD → PrngReg)

/-- The loss result after the host lines that follow the region. -/
theorem v27_eq (c : Dev nD) :
    Pipeline.afterTail₀ cfgs (dats m) 0 (V0 m) [hostOps1, hostOps1_1] c main_v27
      = fun _ => kLoss (feat m c) (lab m c) (cen m c) := by
  rw [tail_v27 m c _ _ _ (final2 m c) (final3 m c) (final4 m c)]
  funext _
  unfold kLoss kNum
  refine congrArg (fun x => Ideal.div x (Ideal.ofBits .f32 0x4C000000#32)) ?_
  refine congrArg₂ (· + ·) (congrArg₂ (· - ·) (sq_halves (feat m c)) (congrArg (Ideal.ofBits .f32 0x40000000#32 * ·)
    (Finset.sum_congr rfl fun c' _ => Finset.sum_congr rfl fun d _ =>
      congrArg (· * cen m c (ix2 c' d)) (seg_halves (feat m c) (lab m c) c' d))))
    (Finset.sum_congr rfl fun c' _ => congrArg (· * ∑ d : Fin 256, cen m c (ix2 c' d) * cen m c (ix2 c' d)) (cnt_halves (lab m c) c'))

/-- The updated centres after the host lines that follow the region. -/
theorem v38_eq (c : Dev nD) :
    Pipeline.afterTail₀ cfgs (dats m) 0 (V0 m) [hostOps1, hostOps1_1] c main_v38
      = newCenArr (feat m c) (lab m c) (cen m c) := by
  rw [tail_v38 m c _ _ (final2 m c) (final3 m c)]
  funext j
  unfold newCenArr
  exact congrArg₂ (fun S N => newCen S N (cen m c j)) (seg_halves (feat m c) (lab m c) (j 0) (j 1)) (cnt_halves (lab m c) (j 0))

/-- THE RUN: every weakly fair execution ends with the loss and the updated centres at these functions of the
    argument arrays, and the arguments unchanged. -/
theorem run : θ_run defs (onTc (τ := τ) (main (F := Ideal))) ⟨m, fun _ => 0, ρ⟩ (fun r => ∀ c : Dev nD,
      r.2.mem ((c.tc : Thread nD τ).loc main_v27) = (fun _ => kLoss (feat m c) (lab m c) (cen m c))
      ∧ r.2.mem ((c.tc : Thread nD τ).loc main_v38) = newCenArr (feat m c) (lab m c) (cen m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v27 (Pipeline.mem_restRefs_of main_v27 (by decide) (by decide))).trans (v27_eq m c),
      ((h c).2 main_v38 (Pipeline.mem_restRefs_of main_v38 (by decide) (by decide))).trans (v38_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Run

end
-- ==== Proof.RefValue.lean ====
/-
  The second program's two results as functions of its argument arrays.

  Its gather reads, for row `i`, the row of the centres that the row's label selects (a negative label moved up by the
  number of classes, the result clamped into the table); its two scatters add, into class `c`, the features and the
  ones of the rows whose label read signed is `c` (a label outside the table adds nowhere).
-/
import proofs.«426006_j43258910605421_3_alg».proof.Proof.RefRead
import proofs.«426006_j43258910605421_3_alg».proof.Proof.Spec
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Ideal.Laws
import Idealize.ShloMosaic.Lib.IdealHost

noncomputable section

open scoped BigOperators
open Idealize.ShloMosaic Idealize.ShloMosaic.ValueIdx

namespace Cert.ReferenceIdeal.RefValue

open Cert.ReferenceIdeal Cert.ReferenceIdeal.Gen Cert.ReferenceIdeal.Read Cert.CenterLoss

/-! ## The gather read at an index -/

/-- The gather's dimension numbers: operand axis 0 collapsed and start-indexed, axis 1 an offset axis of full width. -/
abbrev GD := gather_S10000x256_S131072x1_S131072x256_1_0_n_n_0_1_1256

/-- Result index `(i, d)` reads its one start-index component at `(i, 0)` of the start indices. -/
theorem gd_siIdx (i : Fin 131072) (d : Fin 256) (c : Fin GD.startIndexMap.length) :
    GD.siIdx (ix2 i d) c = (ix2 i (0 : Fin 1) : S131072x1.Idx) := by
  funext b; refine Fin.ext ?_
  match b with
  | ⟨0, _⟩ => rfl
  | ⟨1, _⟩ =>
    show c.val = 0
    have := c.isLt
    have h1 : GD.startIndexMap.length = 1 := rfl
    omega

/-- The gather at `(i, d)`: the operand at row "start index of `i`, read signed and clamped into `[0, 9999]`" and
    column `d` (axis 0: the clamped start, no batching or offset coordinate; axis 1: no start, the offset coordinate). -/
theorem gather_apply {α : Type} (x : S10000x256.Idx → α) (idx : IVec S131072x1 32) (i : Fin 131072) (d : Fin 256) :
    Host.gather GD x idx (ix2 i d) = x (ix2 ⟨min (idx (ix2 i (0 : Fin 1))).toInt.toNat 9999, by omega⟩ d) := by
  unfold Host.gather
  congr 1
  funext a; refine Fin.ext ?_
  match a with
  | ⟨0, _⟩ =>
    show GD.start (ix2 i d) idx 0 + GD.batchCoord (ix2 i d) 0 + GD.offCoord (ix2 i d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ GD.startIndexMap from List.mem_singleton.mpr rfl), gd_siIdx]
    rfl
  | ⟨1, _⟩ =>
    show GD.start (ix2 i d) idx 1 + GD.batchCoord (ix2 i d) 1 + GD.offCoord (ix2 i d) 1 = _
    rw [GatherDims.batchCoord_eq_zero _ _ _ List.not_mem_nil]
    unfold GatherDims.start
    rw [dif_neg (show ¬ (1 : Fin 2) ∈ GD.startIndexMap by decide)]
    simp only [Nat.add_zero, Nat.zero_add]
    rfl

/-- The gather's start index for row `i` is the row's wrapped label. -/
theorem v5_at (x1 : Lab) (i : Fin 131072) :
    val_main_v5 (F := Ideal) x1 (ix2 i (0 : Fin 1)) = wrapLabel (x1 (ix1 i)) := by
  have e5 : idx_main_v5 (ix2 i (0 : Fin 1) : S131072x1.Idx) = ix1 i :=
    funext fun a => Fin.ext (by match a with | ⟨0, _⟩ => rfl)
  rw [val_main_v5_apply, e5, val_main_v4_apply, val_main_v1_apply, val_main_v3_apply, val_main_v0_apply,
    val_main_v2_apply, val_main_c_apply, val_main_c_0_apply]
  rfl

/-- The gathered centres: row `i` is the centre its label selects. -/
theorem v6_at (x1 : Lab) (x2 : Cen) (i : Fin 131072) (d : Fin 256) :
    val_main_v6 (F := Ideal) x1 x2 (ix2 i d) = x2 (ix2 (gatherRow x1 i) d) := by
  unfold val_main_v6
  refine (gather_apply x2 _ i d).trans ?_
  refine congrArg x2 (congrArg (fun r => ix2 r d) (Fin.ext ?_))
  show min (val_main_v5 (F := Ideal) x1 (ix2 i (0 : Fin 1))).toInt.toNat 9999 = min (wrapLabel (x1 (ix1 i))).toInt.toNat 9999
  rw [v5_at]

/-- The loss result. -/
theorem ref_loss (x0 : Feat) (x1 : Lab) (x2 : Cen) :
    val_main_v10 (F := Ideal) x0 x1 x2 = fun _ => rLoss x0 x1 x2 := by
  funext j
  rw [val_main_v10_apply, val_main_v9_apply, val_main_cst_apply, val_main_cst_1_apply, sum_idx2]
  simp only [val_main_v8_apply, val_main_v7_apply, v6_at, Ideal.hostDivf_def, Ideal.mulf_def, Ideal.subf_def,
    Ideal.ofBits_def, Ideal.ofBits_zero_f32, zero_add]
  rfl

/-! ## Words: a label read signed is a class number exactly when it is the class's word -/

/-- A 32-bit word read signed is the number `c` below 2³¹ exactly when it is the word of `c`. -/
theorem toInt_eq_iff (w : BitVec 32) (c : ℕ) (hc : c < 2 ^ 31) : w.toInt = (c : ℤ) ↔ w = BitVec.ofNat 32 c := by
  constructor
  · intro h
    have h2 : BitVec.ofInt 32 w.toInt = BitVec.ofInt 32 (c : ℤ) := congrArg (BitVec.ofInt 32) h
    rw [BitVec.ofInt_toInt, BitVec.ofInt_natCast] at h2
    exact h2
  · rintro rfl
    exact StableHlo.Predicate.toInt_ofNat_small c hc

/-! ## The feature scatter read at an index -/

/-- The feature scatter's dimension numbers: operand axis 0 inserted and scatter-indexed, axis 1 the window axis. -/
abbrev SF := scatter_S10000x256_S131072x1_S131072x256_1_0_0_1

/-- Update index `(r, d')` reads its one scatter-index component at `(r, 0)` of the scatter indices. -/
theorem sf_siIdx (r : Fin 131072) (d' : Fin 256) (c : Fin SF.scatterDimsToOperandDims.length) :
    SF.siIdx (ix2 r d') c = (ix2 r (0 : Fin 1) : S131072x1.Idx) := by
  funext b; refine Fin.ext ?_
  match b with
  | ⟨0, _⟩ => rfl
  | ⟨1, _⟩ =>
    show c.val = 0
    have := c.isLt
    have h1 : SF.scatterDimsToOperandDims.length = 1 := rfl
    omega

theorem sf_start0 (idx : IVec S131072x1 32) (r : Fin 131072) (d' : Fin 256) :
    SF.start (ix2 r d') idx 0 = (idx (ix2 r (0 : Fin 1))).toInt := by
  unfold ScatterDims.start
  rw [dif_pos (show (0 : Fin 2) ∈ SF.scatterDimsToOperandDims from List.mem_singleton.mpr rfl), sf_siIdx]
theorem sf_start1 (idx : IVec S131072x1 32) (r : Fin 131072) (d' : Fin 256) :
    SF.start (ix2 r d') idx 1 = 0 := by
  unfold ScatterDims.start
  rw [dif_neg (show ¬ (1 : Fin 2) ∈ SF.scatterDimsToOperandDims by decide)]
theorem sf_window0 (r : Fin 131072) (d' : Fin 256) : SF.window (ix2 r d') 0 = 0 := by
  unfold ScatterDims.window
  rw [dif_neg (show ¬ (0 : Fin 2) ∈ SF.sKept by decide)]
theorem sf_window1 (r : Fin 131072) (d' : Fin 256) : SF.window (ix2 r d') 1 = d'.val := by
  unfold ScatterDims.window
  rw [dif_pos (show (1 : Fin 2) ∈ SF.sKept by decide)]
  rfl

/-- Update `(r, d')` lands at `(c, d)` exactly when row `r`'s scatter index read signed is `c` and `d' = d`. -/
theorem sf_resultIdx_iff (idx : IVec S131072x1 32) (r : Fin 131072) (d' : Fin 256) (c : Fin 10000) (d : Fin 256) :
    SF.resultIdx? (ix2 r d') idx = some (ix2 c d) ↔ (idx (ix2 r (0 : Fin 1))).toInt = (c.val : ℤ) ∧ d' = d := by
  have hc := c.isLt
  have hd' := d'.isLt
  unfold ScatterDims.resultIdx?
  split
  · rename_i h
    rw [Option.some.injEq]
    constructor
    · intro hf
      have h0 : (SF.start (ix2 r d') idx 0 + SF.window (ix2 r d') 0).toNat = c.val :=
        congrArg Fin.val (congrFun hf 0)
      have h1 : (SF.start (ix2 r d') idx 1 + SF.window (ix2 r d') 1).toNat = d.val :=
        congrArg Fin.val (congrFun hf 1)
      have g0 := (h 0).1
      rw [sf_start0, sf_window0] at h0 g0
      rw [sf_start1, sf_window1] at h1
      refine ⟨by omega, Fin.ext (by omega)⟩
    · rintro ⟨h0, rfl⟩
      funext a; refine Fin.ext ?_
      match a with
      | ⟨0, _⟩ =>
        show (SF.start (ix2 r d') idx 0 + SF.window (ix2 r d') 0).toNat = c.val
        rw [sf_start0, sf_window0]; omega
      | ⟨1, _⟩ =>
        show (SF.start (ix2 r d') idx 1 + SF.window (ix2 r d') 1).toNat = d'.val
        rw [sf_start1, sf_window1]; omega
  · rename_i h
    constructor
    · intro hf; cases hf
    · rintro ⟨h0, rfl⟩
      refine absurd (fun a => ?_) h
      match a with
      | ⟨0, _⟩ =>
        show 0 ≤ SF.start (ix2 r d') idx 0 + SF.window (ix2 r d') 0
          ∧ SF.start (ix2 r d') idx 0 + SF.window (ix2 r d') 0 < ((10000 : ℕ) : ℤ)
        rw [sf_start0, sf_window0]; omega
      | ⟨1, _⟩ =>
        show 0 ≤ SF.start (ix2 r d') idx 1 + SF.window (ix2 r d') 1
          ∧ SF.start (ix2 r d') idx 1 + SF.window (ix2 r d') 1 < ((256 : ℕ) : ℤ)
        rw [sf_start1, sf_window1]; omega

/-- The feature scatter at `(c, d)`: the operand there plus the updates `(r, d)` of the rows `r` whose scatter index
    read signed is `c`. -/
theorem scatterF_apply (x : S10000x256.Idx → EReal) (idx : IVec S131072x1 32) (u : S131072x256.Idx → EReal)
    (c : Fin 10000) (d : Fin 256) :
    Ideal.hostScatterAdd SF x idx u (ix2 c d)
      = x (ix2 c d) + ∑ r : Fin 131072, if (idx (ix2 r (0 : Fin 1))).toInt = (c.val : ℤ) then u (ix2 r d) else 0 := by
  unfold Ideal.hostScatterAdd
  refine congrArg (x (ix2 c d) + ·) ?_
  rw [Finset.sum_filter, sum_idx2]
  refine Finset.sum_congr rfl fun r _ => ?_
  by_cases hP : (idx (ix2 r (0 : Fin 1))).toInt = (c.val : ℤ)
  · rw [if_pos hP]
    refine (Finset.sum_congr rfl fun d' _ =>
      if_congr ((sf_resultIdx_iff idx r d' c d).trans (and_iff_right hP)) rfl rfl).trans ?_
    exact (Finset.sum_ite_eq' Finset.univ d (fun d' => u (ix2 r d'))).trans (if_pos (Finset.mem_univ d))
  · rw [if_neg hP]
    exact Finset.sum_eq_zero fun d' _ => if_neg (fun h => hP ((sf_resultIdx_iff idx r d' c d).mp h).1)

/-! ## The count scatter read at an index -/

/-- A rank-1 index set is its coordinate's range … -/
def idxEquiv1 {n : ℕ} : (⟨1, ![n]⟩ : Shape).Idx ≃ Fin n where
  toFun i := i 0
  invFun := ix1
  left_inv i := (eq_ix1 i).symm
  right_inv _ := rfl
/-- … so a sum over it is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-- The count scatter's dimension numbers: the operand's one axis inserted and scatter-indexed, no window axis. -/
abbrev SC := scatter_S10000_S131072x1_S131072_n_0_0_1

/-- Update index `r` reads its one scatter-index component at `(r, 0)` of the scatter indices. -/
theorem sc_siIdx (r : Fin 131072) (c : Fin SC.scatterDimsToOperandDims.length) :
    SC.siIdx (ix1 r) c = (ix2 r (0 : Fin 1) : S131072x1.Idx) := by
  funext b; refine Fin.ext ?_
  match b with
  | ⟨0, _⟩ => rfl
  | ⟨1, _⟩ =>
    show c.val = 0
    have := c.isLt
    have h1 : SC.scatterDimsToOperandDims.length = 1 := rfl
    omega

theorem sc_start0 (idx : IVec S131072x1 32) (r : Fin 131072) :
    SC.start (ix1 r) idx 0 = (idx (ix2 r (0 : Fin 1))).toInt := by
  unfold ScatterDims.start
  rw [dif_pos (show (0 : Fin 1) ∈ SC.scatterDimsToOperandDims from List.mem_singleton.mpr rfl), sc_siIdx]
theorem sc_window0 (r : Fin 131072) : SC.window (ix1 r) 0 = 0 := by
  unfold ScatterDims.window
  rw [dif_neg (show ¬ (0 : Fin 1) ∈ SC.sKept by decide)]

/-- Update `r` lands at `c` exactly when row `r`'s scatter index read signed is `c`. -/
theorem sc_resultIdx_iff (idx : IVec S131072x1 32) (r : Fin 131072) (c : Fin 10000) :
    SC.resultIdx? (ix1 r) idx = some (ix1 c) ↔ (idx (ix2 r (0 : Fin 1))).toInt = (c.val : ℤ) := by
  have hc := c.isLt
  unfold ScatterDims.resultIdx?
  split
  · rename_i h
    rw [Option.some.injEq]
    constructor
    · intro hf
      have h0 : (SC.start (ix1 r) idx 0 + SC.window (ix1 r) 0).toNat = c.val :=
        congrArg Fin.val (congrFun hf 0)
      have g0 := (h 0).1
      rw [sc_start0, sc_window0] at h0 g0
      omega
    · intro h0
      funext a; refine Fin.ext ?_
      match a with
      | ⟨0, _⟩ =>
        show (SC.start (ix1 r) idx 0 + SC.window (ix1 r) 0).toNat = c.val
        rw [sc_start0, sc_window0]; omega
  · rename_i h
    constructor
    · intro hf; cases hf
    · intro h0
      refine absurd (fun a => ?_) h
      match a with
      | ⟨0, _⟩ =>
        show 0 ≤ SC.start (ix1 r) idx 0 + SC.window (ix1 r) 0
          ∧ SC.start (ix1 r) idx 0 + SC.window (ix1 r) 0 < ((10000 : ℕ) : ℤ)
        rw [sc_start0, sc_window0]; omega

/-- The count scatter at `c`: the operand there plus the updates of the rows whose scatter index read signed is `c`. -/
theorem scatterC_apply (x : S10000.Idx → EReal) (idx : IVec S131072x1 32) (u : S131072.Idx → EReal) (c : Fin 10000) :
    Ideal.hostScatterAdd SC x idx u (ix1 c)
      = x (ix1 c) + ∑ r : Fin 131072, if (idx (ix2 r (0 : Fin 1))).toInt = (c.val : ℤ) then u (ix1 r) else 0 := by
  unfold Ideal.hostScatterAdd
  refine congrArg (x (ix1 c) + ·) ?_
  rw [Finset.sum_filter, sum_idx1]
  exact Finset.sum_congr rfl fun r _ => if_congr (sc_resultIdx_iff idx r c) rfl rfl

/-! ## The two scatters of the program: the class sums and the class counts -/

/-- The scatter indices (both scatters') at row `r`: the row's label. -/
theorem v12_at (x1 : Lab) (r : Fin 131072) : val_main_v12 (F := Ideal) x1 (ix2 r (0 : Fin 1)) = x1 (ix1 r) := by
  rw [val_main_v12_apply]
  exact congrArg x1 (funext fun a => Fin.ext (by match a with | ⟨0, _⟩ => rfl))
theorem v16_at (x1 : Lab) (r : Fin 131072) : val_main_v16 (F := Ideal) x1 (ix2 r (0 : Fin 1)) = x1 (ix1 r) := by
  rw [val_main_v16_apply]
  exact congrArg x1 (funext fun a => Fin.ext (by match a with | ⟨0, _⟩ => rfl))

/-- The feature scatter into zeros is the class sum. -/
theorem v13_at (x0 : Feat) (x1 : Lab) (c : Fin 10000) (d : Fin 256) :
    val_main_v13 (F := Ideal) x0 x1 (ix2 c d) = segSum x0 x1 c d := by
  show Ideal.hostScatterAdd SF (val_main_v11 (F := Ideal)) (val_main_v12 (F := Ideal) x1) x0 (ix2 c d) = _
  refine (scatterF_apply _ _ _ c d).trans ?_
  rw [val_main_v11_apply, val_main_cst_2_apply, Ideal.ofBits_def, Ideal.ofBits_zero_f32, zero_add]
  unfold Cert.CenterLoss.segSum
  refine Finset.sum_congr rfl fun r _ => ?_
  rw [v12_at]
  exact if_congr (toInt_eq_iff _ c.val (by have := c.isLt; omega)) rfl rfl

/-- The scatter of ones into zeros is the class count. -/
theorem v17_at (x1 : Lab) (c : Fin 10000) : val_main_v17 (F := Ideal) x1 (ix1 c) = Cert.CenterLoss.count x1 c := by
  show Ideal.hostScatterAdd SC (val_main_v15 (F := Ideal)) (val_main_v16 (F := Ideal) x1) (val_main_v14 (F := Ideal))
    (ix1 c) = _
  refine (scatterC_apply _ _ _ c).trans ?_
  rw [val_main_v15_apply, val_main_cst_4_apply, Ideal.ofBits_def, Ideal.ofBits_zero_f32, zero_add]
  unfold Cert.CenterLoss.count
  refine Finset.sum_congr rfl fun r _ => ?_
  rw [v16_at, val_main_v14_apply, val_main_cst_3_apply, Ideal.ofBits_def, Ideal.ofBits_one_f32]
  exact if_congr (toInt_eq_iff _ c.val (by have := c.isLt; omega)) rfl rfl

/-- The updated centres. -/
theorem ref_cen (x0 : Feat) (x1 : Lab) (x2 : Cen) :
    val_main_v30 (F := Ideal) x0 x1 x2 = newCenArr x0 x1 x2 := by
  funext j
  obtain ⟨c, d, rfl⟩ : ∃ (c : Fin 10000) (d : Fin 256), j = ix2 c d := ⟨j 0, j 1, eq_ix2 j⟩
  have e0 : idx_main_call0_v0 (ix2 c d : S10000x256.Idx) = (ix2 c (0 : Fin 1) : S10000x1.Idx) :=
    funext fun a => Fin.ext (by match a with | ⟨0, _⟩ => rfl | ⟨1, _⟩ => rfl)
  have e25 : idx_main_v25 (ix2 c (0 : Fin 1) : S10000x1.Idx) = ix1 c :=
    funext fun a => Fin.ext (by match a with | ⟨0, _⟩ => rfl)
  have e21 : idx_main_v21 (ix2 c d : S10000x256.Idx) = (ix2 c (0 : Fin 1) : S10000x1.Idx) :=
    funext fun a => Fin.ext (by match a with | ⟨0, _⟩ => rfl | ⟨1, _⟩ => rfl)
  have e20 : idx_main_v20 (ix2 c (0 : Fin 1) : S10000x1.Idx) = ix1 c :=
    funext fun a => Fin.ext (by match a with | ⟨0, _⟩ => rfl)
  rw [val_main_v30_apply, val_main_call0_v0_apply, e0, val_main_v25_apply, e25, val_main_v24_apply,
    val_main_v23_apply, val_main_cst_6_apply, val_main_v29_apply, val_main_v28_apply, val_main_v27_apply,
    val_main_cst_7_apply, val_main_v26_apply, val_main_v22_apply, val_main_v21_apply, e21, val_main_v20_apply, e20,
    val_main_v19_apply, val_main_v18_apply, val_main_cst_5_apply, v13_at, v17_at]
  simp only [Ideal.cmpf_def, Ideal.addf_def, Ideal.mulf_def, Ideal.subf_def, Ideal.hostDivf_def, Ideal.maximumf_def,
    Ideal.ofBits_def]
  rfl

end Cert.ReferenceIdeal.RefValue

end
-- ==== Proof.PreDecode.lean ====
/-
  What the precondition says of the three arguments: every feature and every centre entry is a real number, and every
  label is the word of a class.
-/
import proofs.«426006_j43258910605421_3_alg».proof.Pre_finite_inputs
import proofs.«426006_j43258910605421_3_alg».proof.Proof.Gen.Pre_finite_inputs
import proofs.«426006_j43258910605421_3_alg».proof.Proof.Spec
import Idealize.ShloMosaic.Lib.ValueIdx
import Idealize.ShloMosaic.Lib.ReduceAll
import Idealize.ShloMosaic.Lib.StableHlo.Predicate

noncomputable section

open Idealize.ShloMosaic Idealize.ShloMosaic.ValueIdx

namespace Cert.PreDecode

open Cert.CenterLoss

/-- The shape of a scalar has one index. -/
instance scalarIdx_subsingleton : Subsingleton Cert.Pre_finite_inputs.S_.Idx :=
  ⟨fun a b => funext fun d => d.elim0⟩

/-- The pattern the precondition compares against denotes +∞. -/
theorem inf_word : Ideal.ofBits .f32 0x7F800000#32 = (⊤ : EReal) := by
  simp [Ideal.ofBits, Ideal.ieee]

/-- An extended real whose absolute value `max x (-x)` tests below +∞ is a real number: at `⊥` and at `⊤` the
    maximum is `⊤`, which is not below itself. -/
theorem real_of_abs_lt_top (x : EReal) (h : Ideal.cmp .olt (max x (-x)) (⊤ : EReal) = 1#1) :
    ∃ r : ℝ, x = (r : EReal) := by
  induction x using EReal.rec with
  | bot => simp [Ideal.cmp] at h
  | top => simp [Ideal.cmp] at h
  | coe r => exact ⟨r, rfl⟩

/-- The element fact of the two finiteness conjuncts, in the words the printed predicate uses. -/
theorem real_of_finite_word (x : Ideal .f32)
    (h : FloatOps.cmpf .olt (FloatOps.hostAbsf x) (FloatOps.ofBits (F := Ideal) .f32 0x7F800000#32) = 1#1) :
    ∃ r : ℝ, (x : EReal) = (r : EReal) := by
  refine real_of_abs_lt_top x ?_
  have e : FloatOps.ofBits (F := Ideal) .f32 0x7F800000#32 = (⊤ : EReal) := inf_word
  rw [e] at h
  exact h

/-- A word that tests nonnegative and below 10000, both signed, is the word of a class. -/
theorem class_of_word (w : BitVec 32) (h0 : IntOp.cmpi .sge w 0#32 = 1#1) (h1 : IntOp.cmpi .slt w 10000#32 = 1#1) :
    ∃ c : Fin 10000, w = BitVec.ofNat 32 c.val := by
  rw [IntOp.cmpi_sge, show (0#32 : BitVec 32).toInt = 0 from by decide] at h0
  rw [IntOp.cmpi_slt, show (10000#32 : BitVec 32).toInt = 10000 from by decide] at h1
  have hn : 2 * w.toNat < 2 ^ 32 := BitVec.toInt_pos_iff.1 h0
  rw [BitVec.toInt_eq_toNat_of_lt hn] at h1
  have hlt : w.toNat < 10000 := by omega
  refine ⟨⟨w.toNat, hlt⟩, BitVec.eq_of_toNat_eq ?_⟩
  show w.toNat = (BitVec.ofNat 32 w.toNat).toNat
  rw [BitVec.toNat_ofNat]
  exact (Nat.mod_eq_of_lt w.isLt).symm

theorem pre_decode [Cert.Pre_finite_inputs.Facts] (x0 : Feat) (x1 : Lab) (x2 : Cen)
    (h : Cert.Pre_finite_inputs.fn (F := Ideal) x0 x1 x2 = fun _ => 1#1) :
    (∀ i, ∃ r : ℝ, x0 i = (r : EReal)) ∧ (∀ i, ∃ r : ℝ, x2 i = (r : EReal))
      ∧ ∀ i, ∃ c : Fin 10000, x1 i = BitVec.ofNat 32 c.val := by
  have h0 := congrFun h ValueIdx.ix0
  dsimp only [Cert.Pre_finite_inputs.fn, Cert.Pre_finite_inputs.fn_part1] at h0
  obtain ⟨h123, hlt⟩ := IntOp.andi_eq_one.1 h0
  obtain ⟨h12, hge⟩ := IntOp.andi_eq_one.1 h123
  obtain ⟨hf, hc⟩ := IntOp.andi_eq_one.1 h12
  refine ⟨fun i => ?_, fun i => ?_, fun i => ?_⟩
  · exact real_of_finite_word (x0 i) (Host.reduce_andi_all _ _ _ _ _ hf i)
  · exact real_of_finite_word (x2 i) (Host.reduce_andi_all _ _ _ _ _ hc i)
  · exact class_of_word (x1 i) (Host.reduce_andi_all _ _ _ _ _ hge i) (Host.reduce_andi_all _ _ _ _ _ hlt i)

end Cert.PreDecode

end
-- ==== Proof.LossAlgebra.lean ====
/-
  The algebra that joins the two programs' losses, over abstract finite index sets.

  Rows `i`, feature coordinates `d`, classes `c`; features `f i d`, class centres `cen c d`, and a label `lab i` for
  every row. Expanding the square and grouping the rows by their label,

      ∑ᵢ ∑_d (f i d − cen (lab i) d)²
        = ∑ᵢ ∑_d (f i d)²  −  2 · ∑_c ∑_d (∑ᵢ [lab i = c] · f i d) · cen c d  +  ∑_c (∑ᵢ [lab i = c]) · ∑_d (cen c d)²

  because every row has exactly one class: ∑_c [lab i = c] · g c = g (lab i). It is an identity of real numbers
  (distributivity is used, which the extended reals lack at the infinities), and is transported to extended reals that
  are coercions of reals.
-/
import Idealize.ShloMosaic.PureOps.Ideal
import Mathlib.Tactic.Ring
import Mathlib.Algebra.BigOperators.Ring.Finset

open scoped BigOperators

namespace Cert.CenterLoss

variable {ι κ δ : Type} [Fintype ι] [Fintype κ] [Fintype δ] [DecidableEq κ]

/-- A sum over classes weighted by the indicator of one row's label picks that label's term. -/
theorem sum_ind_mul (lab : ι → κ) (i : ι) (a : ℝ) (g : κ → ℝ) :
    ∑ c, (if lab i = c then a else 0) * g c = a * g (lab i) := by
  simp [ite_mul]

/-- Three nested finite sums, the outermost moved innermost. -/
theorem sum_rotate {M : Type} [AddCommMonoid M] (t : κ → δ → ι → M) :
    ∑ c, ∑ d, ∑ i, t c d i = ∑ i, ∑ d, ∑ c, t c d i :=
  calc ∑ c, ∑ d, ∑ i, t c d i = ∑ c, ∑ i, ∑ d, t c d i := Finset.sum_congr rfl fun _ _ => Finset.sum_comm
    _ = ∑ i, ∑ c, ∑ d, t c d i := Finset.sum_comm
    _ = ∑ i, ∑ d, ∑ c, t c d i := Finset.sum_congr rfl fun _ _ => Finset.sum_comm

/-- The cross term: the per-class sums of the features against the centres are the features against their own
    row's centre. -/
theorem cross_eq (f : ι → δ → ℝ) (cen : κ → δ → ℝ) (lab : ι → κ) :
    ∑ c, ∑ d, (∑ i, if lab i = c then f i d else 0) * cen c d = ∑ i, ∑ d, f i d * cen (lab i) d := by
  simp_rw [Finset.sum_mul]
  rw [sum_rotate]
  exact Finset.sum_congr rfl fun i _ => Finset.sum_congr rfl fun d _ => sum_ind_mul lab i (f i d) fun c => cen c d

/-- The quadratic term: the class counts against the centres' squared norms are the squared norms of each row's own
    centre. -/
theorem quad_eq (cen : κ → δ → ℝ) (lab : ι → κ) :
    ∑ c, (∑ i, if lab i = c then (1 : ℝ) else 0) * ∑ d, cen c d * cen c d
      = ∑ i, ∑ d, cen (lab i) d * cen (lab i) d := by
  simp_rw [Finset.sum_mul]
  rw [Finset.sum_comm]
  exact Finset.sum_congr rfl fun i _ => (sum_ind_mul lab i 1 fun c => ∑ d, cen c d * cen c d).trans (one_mul _)

/-- THE IDENTITY, over the reals. -/
theorem loss_identity (f : ι → δ → ℝ) (cen : κ → δ → ℝ) (lab : ι → κ) :
    ∑ i, ∑ d, (f i d - cen (lab i) d) * (f i d - cen (lab i) d)
      = (∑ i, ∑ d, f i d * f i d) - 2 * (∑ c, ∑ d, (∑ i, if lab i = c then f i d else 0) * cen c d)
        + ∑ c, (∑ i, if lab i = c then (1 : ℝ) else 0) * ∑ d, cen c d * cen c d := by
  rw [cross_eq, quad_eq, Finset.mul_sum, ← Finset.sum_sub_distrib, ← Finset.sum_add_distrib]
  refine Finset.sum_congr rfl fun i _ => ?_
  rw [Finset.mul_sum, ← Finset.sum_sub_distrib, ← Finset.sum_add_distrib]
  exact Finset.sum_congr rfl fun d _ => by ring

/-! ## The same over extended reals that are real -/

/-- The coercion of a finite sum of reals is the sum of the coercions. -/
theorem coe_sum {α : Type} (s : Finset α) (g : α → ℝ) : ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

theorem ite_coe (p : Prop) [Decidable p] (a : ℝ) : (if p then (a : EReal) else 0) = ((if p then a else 0 : ℝ) : EReal) := by
  split_ifs <;> simp

theorem ite_one_coe (p : Prop) [Decidable p] : (if p then (1 : EReal) else 0) = ((if p then 1 else 0 : ℝ) : EReal) := by
  split_ifs <;> simp

/-- THE IDENTITY, over extended reals all of which are real: the sum of squared differences on the left, on the right
    the three grouped sums. -/
theorem loss_identity_ereal (f : ι → δ → ℝ) (cen : κ → δ → ℝ) (lab : ι → κ) :
    ∑ i, ∑ d, ((f i d : EReal) - (cen (lab i) d : EReal)) * ((f i d : EReal) - (cen (lab i) d : EReal))
      = (∑ i, ∑ d, (f i d : EReal) * (f i d : EReal))
          - (2 : EReal) * (∑ c, ∑ d, (∑ i, if lab i = c then (f i d : EReal) else 0) * (cen c d : EReal))
        + ∑ c, (∑ i, if lab i = c then (1 : EReal) else 0) * ∑ d, (cen c d : EReal) * (cen c d : EReal) := by
  have h2 : (2 : EReal) = ((2 : ℝ) : EReal) := rfl
  simp only [h2, ite_coe, ite_one_coe, ← EReal.coe_sub, ← EReal.coe_mul, ← coe_sum, ← EReal.coe_add]
  exact congrArg _ (loss_identity f cen lab)

end Cert.CenterLoss
-- ==== Proof.Bridge.lean ====
/-
  The two losses agree where every feature and every centre entry is a real number and every label is a class.

  Then the gather reads, for each row, exactly the centre of the row's class (the label is not negative, so it is not
  moved, and it is inside the table, so it is not clamped); the features and the centres are coercions of reals, and the
  grouped form of the sum of squared differences (LossAlgebra) is the first program's numerator, with the word 2.0
  denoting the number 2. Both programs divide their numerator by the same word.
-/
import proofs.«426006_j43258910605421_3_alg».proof.Proof.Spec
import proofs.«426006_j43258910605421_3_alg».proof.Proof.LossAlgebra
import Idealize.ShloMosaic.Lib.StableHlo.Predicate

noncomputable section

open scoped BigOperators

namespace Cert.CenterLoss

open Idealize.ShloMosaic Idealize.ShloMosaic.ValueIdx

/-- The word `2.0` denotes the number 2. -/
theorem ofBits_two : Ideal.ofBits .f32 0x40000000#32 = (2 : EReal) := by
  have h : Ideal.ofBits .f32 0x40000000#32 = ((2 : ℝ) : EReal) := by
    simp [Ideal.ofBits, Ideal.ieee, -EReal.coe_mul]; norm_num
  exact h

/-- Two class words are equal exactly when the classes are. -/
theorem ofNat_class_inj (a c : Fin 10000) : BitVec.ofNat 32 a.val = BitVec.ofNat 32 c.val ↔ a = c := by
  constructor
  · intro h
    have h' := congrArg BitVec.toNat h
    simp only [BitVec.toNat_ofNat] at h'
    have ha := a.isLt; have hc := c.isLt
    exact Fin.ext (by omega)
  · rintro rfl; rfl

/-- A class word is read by the gather as its own class: not negative, inside the table. -/
theorem gatherRow_of_class (l : Lab) (i : Fin 131072) (a : Fin 10000) (h : l (ix1 i) = BitVec.ofNat 32 a.val) :
    gatherRow l i = a := by
  have ha := a.isLt
  have hnat : (BitVec.ofNat 32 a.val).toNat = a.val := by simp only [BitVec.toNat_ofNat]; omega
  have hint : (BitVec.ofNat 32 a.val).toInt = (a.val : Int) :=
    StableHlo.Predicate.toInt_ofNat_small a.val (by omega)
  have hslt : IntOp.cmpi .slt (BitVec.ofNat 32 a.val) 0#32 = 0#1 := by
    show BitVec.ofBool ((BitVec.ofNat 32 a.val).slt 0#32) = 0#1
    have : (BitVec.ofNat 32 a.val).slt 0#32 = false := by
      simp only [BitVec.slt, hint]; simp
    rw [this]; rfl
  apply Fin.ext
  show min (wrapLabel (l (ix1 i))).toInt.toNat 9999 = a.val
  rw [h]
  unfold wrapLabel
  rw [hslt, select_zero, hint]
  simp only [Int.toNat_natCast]
  omega

theorem kLoss_eq_rLoss (f : Feat) (l : Lab) (cen : Cen)
    (hf : ∀ i, ∃ r : ℝ, f i = (r : EReal)) (hc : ∀ i, ∃ r : ℝ, cen i = (r : EReal))
    (hl : ∀ i, ∃ c : Fin 10000, l i = BitVec.ofNat 32 c.val) :
    kLoss f l cen = rLoss f l cen := by
  choose f' hf' using hf
  choose c' hc' using hc
  choose lab hlab using hl
  unfold kLoss rLoss
  refine congrArg (fun x => Ideal.div x (Ideal.ofBits .f32 0x4C000000#32)) ?_
  unfold kNum rNum sumSq segSum count
  have hg : ∀ i : Fin 131072, gatherRow l i = lab (ix1 i) := fun i => gatherRow_of_class l i _ (hlab (ix1 i))
  have hind : ∀ (i : Fin 131072) (c : Fin 10000), (l (ix1 i) = BitVec.ofNat 32 c.val) ↔ (lab (ix1 i) = c) := fun i c => by
    rw [hlab (ix1 i)]; exact ofNat_class_inj _ _
  simp only [hg, hind, hf', hc', ofBits_two]
  exact (loss_identity_ereal (fun i d => f' (ix2 i d)) (fun c d => c' (ix2 c d)) (fun i => lab (ix1 i))).symm

end Cert.CenterLoss

end
-- ==== Proof.lean ====
/-
  The certificate: a centre loss computed two ways.

  The features are a [131072, 256] array, the labels 131072 class numbers below 10000, the centres a [10000, 256]
  array. The reference gathers each row's centre, averages the squared differences, and moves every centre half-way to
  the mean of the rows of its class. The kernel never gathers: over a 2 × 128 grid of 512-row tiles it accumulates, per
  half of the rows, the one-hot label mask transposed against the features (the per-class feature sums), the mask's
  column counts and the sum of squared features, and the host lines after it assemble the loss from the expanded square,

      ∑ᵢ ‖fᵢ − c(lᵢ)‖² = ∑ᵢ ‖fᵢ‖² − 2 ∑_c ⟨S_c, c_c⟩ + ∑_c N_c ‖c_c‖²,

  an identity of real numbers that needs every row to have exactly one class and every entry to be finite. So the
  precondition asks, beside finite features and centres, that every label lies in 0 … 9999: outside that range the
  reference's own gather indexes out of its table (it clamps), and the two losses differ.

  The updated centres need no algebra beyond regrouping sums: both programs apply one entrywise rule to the same
  per-class sums and counts (a label outside the table adds nowhere in either program).
-/
import proofs.«426006_j43258910605421_3_alg».proof.Defs
import proofs.«426006_j43258910605421_3_alg».proof.Proof.Gen.Kernel
import proofs.«426006_j43258910605421_3_alg».proof.Proof.Gen.Kernel.Frame
import proofs.«426006_j43258910605421_3_alg».proof.Proof.Gen.KernelIdeal
import proofs.«426006_j43258910605421_3_alg».proof.Proof.Gen.KernelIdeal.Frame
import proofs.«426006_j43258910605421_3_alg».proof.Proof.Gen.ReferenceIdeal
import proofs.«426006_j43258910605421_3_alg».proof.Proof.Gen.Pre_finite_inputs
import proofs.«426006_j43258910605421_3_alg».proof.Proof.KRun
import proofs.«426006_j43258910605421_3_alg».proof.Proof.RefRead
import proofs.«426006_j43258910605421_3_alg».proof.Proof.RefValue
import proofs.«426006_j43258910605421_3_alg».proof.Proof.PreDecode
import proofs.«426006_j43258910605421_3_alg».proof.Proof.Bridge
import Idealize.ShloMosaic.Adequacy
import Idealize.ShloMosaic.Init

noncomputable section

namespace Cert.Proof

open Idealize.ShloMosaic Idealize.ShloMosaic.TcCoe Idealize.SL.Sem Cert.CenterLoss

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

/-- The word-level kernel runs and leaves its arguments as they were. -/
theorem frame_k : Cert.frame_Kernel := fun m ρ _ => Cert.Kernel.Gen.frame m ρ
/-- So does its idealization. -/
theorem frame_ki : Cert.frame_KernelIdeal := fun m ρ _ => Cert.KernelIdeal.Gen.frame m ρ
/-- The reference is a straight line of host operations: its run, with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The one rewrite of the idealization: the one-hot mask narrowed to bf16 and widened back is the mask. -/
theorem preserves : Cert.preserves_Kernel_KernelIdeal :=
  IdealRules.truncf_extf.statement Cert.KernelIdeal.S512x10000 .f32 .bf16

/-- The two idealized programs, from memories that agree on the arguments, end with the same loss and the same
    updated centres. -/
theorem algebraic : Cert.algebraic_KernelIdeal_ReferenceIdeal := by
  intro m ρ m' ρ' hpre hagree
  refine ⟨fun c => fun _ => kLoss (Cert.KernelIdeal.Acc.feat m c) (Cert.KernelIdeal.Acc.lab m c) (Cert.KernelIdeal.Tail.cen m c),
    fun c => newCenArr (Cert.KernelIdeal.Acc.feat m c) (Cert.KernelIdeal.Acc.lab m c) (Cert.KernelIdeal.Tail.cen m c),
    Cert.KernelIdeal.Run.run m ρ, ?_⟩
  refine (θ_run Cert.ReferenceIdeal.defs _ _).mono (fun _ h c => ⟨?_, ?_, (h c).2.2⟩)
    (Cert.ReferenceIdeal.Value.run (F := Ideal) m' ρ')
  · obtain ⟨hf, hc, hl⟩ := Cert.PreDecode.pre_decode _ _ _ (hpre c)
    rw [(h c).1, Cert.ReferenceIdeal.Read.val_main_v10_eq, Cert.ReferenceIdeal.RefValue.ref_loss,
      (hagree c).1, (hagree c).2.1, (hagree c).2.2]
    funext _
    exact (kLoss_eq_rLoss _ _ _ hf hc hl).symm
  · rw [(h c).2.1, Cert.ReferenceIdeal.Read.val_main_v30_eq, Cert.ReferenceIdeal.RefValue.ref_cen,
      (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
